-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_
  bcast_S_S262144x256 : S_.BroadcastsInDim S262144x256 (![] : Fin 0 → Fin S262144x256.rank)
  reducesTo_S262144x256_S_d0_1 : S262144x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S262144x256 1) : IVec S_ 1 :=
  let main_c_5 : IVec S_ 1 := constantI S_ 1 1#1
  let main_v17 : IVec S_ 1 := (fun x v => Host.reduce IntOp.andi x v reducesTo_S262144x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x512 .f32) (main_arg1 : FVec F S32x256x512 .f32) (main_arg2 : FVec F S32x1024x512 .f32) (main_arg3 : FVec F S262144x256 .f32) (main_arg4 : FVec F S256 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x512 .f32 := Host.absf main_arg1
  let main_cst_0 : FVec F S_ .f32 := constant S_ .f32 0x7F800000#32
  let main_v5 : FVec F S32x256x512 .f32 := broadcastInDim S32x256x512 ![] bcast_S_S32x256x512 main_cst_0
  let main_v6 : IVec S32x256x512 1 := cmpf .olt main_v4 main_v5
  let main_c_1 : IVec S_ 1 := constantI S_ 1 1#1
  let main_v7 : IVec S_ 1 := (fun x v => Host.reduce IntOp.andi x v reducesTo_S32x256x512_S_d0_1_2 h_S_) main_v6 main_c_1
  let main_v8 : IVec S_ 1 := andi main_v3 main_v7
  let main_v9 : FVec F S32x1024x512 .f32 := Host.absf main_arg2
  let main_cst_2 : FVec F S_ .f32 := constant S_ .f32 0x7F800000#32
  let main_v10 : FVec F S32x1024x512 .f32 := broadcastInDim S32x1024x512 ![] bcast_S_S32x1024x512 main_cst_2
  let main_v11 : IVec S32x1024x512 1 := cmpf .olt main_v9 main_v10
  let main_c_3 : IVec S_ 1 := constantI S_ 1 1#1
  let main_v12 : IVec S_ 1 := (fun x v => Host.reduce IntOp.andi x v reducesTo_S32x1024x512_S_d0_1_2 h_S_) main_v11 main_c_3
  let main_v13 : IVec S_ 1 := andi main_v8 main_v12
  let main_v14 : FVec F S262144x256 .f32 := Host.absf main_arg3
  let main_cst_4 : FVec F S_ .f32 := constant S_ .f32 0x7F800000#32
  let main_v15 : FVec F S262144x256 .f32 := broadcastInDim S262144x256 ![] bcast_S_S262144x256 main_cst_4
  let main_v16 : IVec S262144x256 1 := cmpf .olt main_v14 main_v15
  fn_part1 (F := F) main_arg4 main_v13 main_v16
-- ==== Kernel.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S32x512x512 : Shape := ⟨3, ![32, 512, 512]⟩
abbrev S1x1024x512 : Shape := ⟨3, ![1, 1024, 512]⟩
abbrev S1x512x512 : Shape := ⟨3, ![1, 512, 512]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S32x262144 : Shape := ⟨2, ![32, 262144]⟩
abbrev S1x256 : Shape := ⟨2, ![1, 256]⟩
abbrev S32x256 : Shape := ⟨2, ![32, 256]⟩
abbrev S32x8192 : Shape := ⟨2, ![32, 8192]⟩
abbrev S8192x256 : Shape := ⟨2, ![8192, 256]⟩
abbrev S32 : Shape := ⟨1, ![32]⟩
abbrev S32x1 : Shape := ⟨2, ![32, 1]⟩

abbrev nBuf : Space → Nat
  | .hbm => 9
  | .vmem => 11
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x1024x512, .f32⟩
  | .hbm, ⟨3, _⟩ => ⟨S262144x256, .f32⟩
  | .hbm, ⟨4, _⟩ => ⟨S256, .f32⟩
  | .hbm, ⟨5, _⟩ => ⟨S32x512x512, .bf16⟩
  | .hbm, ⟨6, _⟩ => ⟨S32x262144, .bf16⟩
  | .hbm, ⟨7, _⟩ => ⟨S1x256, .f32⟩
  | .hbm, ⟨8, _⟩ => ⟨S32x256, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .bf16⟩
  | .local _ .vmem, ⟨3, _⟩ => ⟨S1x512x512, .bf16⟩
  | .local _ .vmem, ⟨4, _⟩ => ⟨S32x8192, .bf16⟩
  | .local _ .vmem, ⟨5, _⟩ => ⟨S32x8192, .bf16⟩
  | .local _ .vmem, ⟨6, _⟩ => ⟨S8192x256, .f32⟩
  | .local _ .vmem, ⟨7, _⟩ => ⟨S8192x256, .f32⟩
  | .local _ .vmem, ⟨8, _⟩ => ⟨S1x256, .f32⟩
  | .local _ .vmem, ⟨9, _⟩ => ⟨S32x256, .f32⟩
  | .local _ .vmem, ⟨10, _⟩ => ⟨S32x256, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  transposes_S1024x512_p1_0_S512x1024 : S1024x512.Transposes [1, 0] S512x1024
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  shapeCasts_S32x512x512_S32x262144 : S32x512x512.ShapeCasts S32x262144
  shapeCasts_S256_S1x256 : S256.ShapeCasts S1x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S8192x256_S8192x256_0_0 : ∀ a, (![0, 0] : Fin 2 → Nat) a + S8192x256.size a ≤ S8192x256.size a
  h_S8192x256 : 0 < S8192x256.numel
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  reduces_S32x256_S32 : S32x256.Reduces [1] S32
  shapeCasts_S32_S32x1 : S32.ShapeCasts S32x1
  broadcasts_S32x1_S32x256 : S32x1.Broadcasts S32x256
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  dot_S32x8192_S8192x256_S32x256_1_0_0_1_n_n_wf : DotDims.WF S32x8192 S8192x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .bf16 = 32 ∨ (Rect.block (s := S32x512x512) S1x512x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x8192.size a ≤ S32x262144.size a
  hwx1_0 : ∀ i : grid1.Coords, EltTy.bits .bf16 = 32 ∨ (Rect.block (s := S32x262144) S32x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S262144x256.size a
  hwx1_1 : ∀ i : grid1.Coords, EltTy.bits .f32 = 32 ∨ (Rect.block (s := S262144x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x256.size a ≤ S32x256.size a
  hwx1_3 : ∀ i : grid1.Coords, EltTy.bits .f32 = 32 ∨ (Rect.block (s := S32x256) S32x256.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S32x8192_S8192x256_S32x256_1_0_0_1_n_n : DotDims S32x8192 S8192x256 S32x256 where
  lhsContracting := [1]
  rhsContracting := [0]
  lhsNonContracting := [0]
  rhsNonContracting := [1]
  lhsBatch := []
  rhsBatch := []
  wf := dot_S32x8192_S8192x256_S32x256_1_0_0_1_n_n_wf

abbrev win0_0 : Pipeline.Window sig grid0 :=
  Pipeline.Window.ofSpec (Memref.whole main_arg2) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S32x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32x256x512 : Shape := ⟨3, ![32, 256, 512]⟩
abbrev S32x1024x512 : Shape := ⟨3, ![32, 1024, 512]⟩
abbrev S262144x256 : Shape := ⟨2, ![262144, 256]⟩
abbrev S256 : Shape := ⟨1, ![256]⟩
abbrev S32x512x1024 : Shape := ⟨3, ![32, 512, 1024]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x262144 : Shape := ⟨2, ![32, 262144]⟩
abbrev S32x256 : Shape := ⟨2, ![32, 256]⟩
abbrev S1x256 : Shape := ⟨2, ![1, 256]⟩
abbrev S32 : Shape := ⟨1, ![32]⟩
abbrev S32x1 : Shape := ⟨2, ![32, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x1024x512, .f32⟩
  | .hbm, ⟨3, _⟩ => ⟨S262144x256, .f32⟩
  | .hbm, ⟨4, _⟩ => ⟨S256, .f32⟩
  | .hbm, ⟨5, _⟩ => ⟨S32x512x1024, .f32⟩
  | .hbm, ⟨6, _⟩ => ⟨S32x512x512, .f32⟩
  | .hbm, ⟨7, _⟩ => ⟨S32x512x512, .f32⟩
  | .hbm, ⟨8, _⟩ => ⟨S_, .f32⟩
  | .hbm, ⟨9, _⟩ => ⟨S32x512, .f32⟩
  | .hbm, ⟨10, _⟩ => ⟨S32x512x512, .f32⟩
  | .hbm, ⟨11, _⟩ => ⟨S32x512x1, .f32⟩
  | .hbm, ⟨12, _⟩ => ⟨S32x1x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S_, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .f32⟩
  | .hbm, ⟨23, _⟩ => ⟨S32x512x512, .f32⟩
  | .hbm, ⟨24, _⟩ => ⟨S32x262144, .f32⟩
  | .hbm, ⟨25, _⟩ => ⟨S32x256, .f32⟩
  | .hbm, ⟨26, _⟩ => ⟨S1x256, .f32⟩
  | .hbm, ⟨27, _⟩ => ⟨S32x256, .f32⟩
  | .hbm, ⟨28, _⟩ => ⟨S32x256, .f32⟩
  | .hbm, ⟨29, _⟩ => ⟨S32x256, .f32⟩
  | .hbm, ⟨30, _⟩ => ⟨S_, .f32⟩
  | .hbm, ⟨31, _⟩ => ⟨S32, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S32x256, .f32⟩
  | .hbm, ⟨38, _⟩ => ⟨S32x256, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  transposes_S32x1024x512_S32x512x1024_0_2_1 : S32x1024x512.Transposes [0, 2, 1] S32x512x1024
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S32x512x512 : S_.BroadcastsInDim S32x512x512 (![] : Fin 0 → Fin S32x512x512.rank)
  shapeCasts_S32x512x512_S32x262144 : S32x512x512.ShapeCasts S32x262144
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S32_d1 : S32x256.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  dot_S32x512x1024_S32x512x1024_S32x512x512_2_2_1_1_0_0_wf : DotDims.WF S32x512x1024 S32x512x1024 S32x512x512 [2] [2] [1] [1] [0] [0]
  dot_S32x512x512_S32x512x512_S32x512x512_2_2_1_1_0_0_wf : DotDims.WF S32x512x512 S32x512x512 S32x512x512 [2] [2] [1] [1] [0] [0]
  dot_S32x262144_S262144x256_S32x256_1_0_0_1_n_n_wf : DotDims.WF S32x262144 S262144x256 S32x256 [1] [0] [0] [1] [] []

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x262144_S262144x256_S32x256_1_0_0_1_n_n : DotDims S32x262144 S262144x256 S32x256 where
  lhsContracting := [1]
  rhsContracting := [0]
  lhsNonContracting := [0]
  rhsNonContracting := [1]
  lhsBatch := []
  rhsBatch := []
  wf := dot_S32x262144_S262144x256_S32x256_1_0_0_1_n_n_wf

class Facts : Prop extends Facts₀ where

variable [Facts]
-- ==== Proof.KernelDistRegion.lean ====
/-
  The first pallas_call: one grid point per batch. The body reads its batch's (1024 x 512) slab of the input, forms the
  Gram matrix of the slab's columns, that matrix's square and its row and column sums of squares, and stores the
  (512 x 512) matrix of clamped square-rooted distances into its batch's block of the output. Here: what the body leaves
  in the output's staging buffer as a function of the slab it loaded, the body's triple, and the per-point obligation the
  pipeline asks of it, at any float instance and at any contents `V` the region is entered with.
-/
import proofs.«163417_j67276367724779_1_alg».proof.Proof.Gen.Kernel.Launch
import proofs.«163417_j67276367724779_1_alg».proof.Proof.Gen.Kernel.Skeleton
import proofs.«163417_j67276367724779_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds batch `t`'s slab at point `t`, for any proof data over `V` whose body leaves it in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole slab, and the whole output block, as rectangles. -/
abbrev rIn : Rect S1x1024x512 := Rect.unit (s := S1x1024x512) ![0, 0, 0] S1x1024x512.size inb_S1x1024x512_S1x1024x512_0_0_0
abbrev rOut : Rect S1x512x512 := Rect.unit (s := S1x512x512) ![0, 0, 0] S1x512x512.size inb_S1x512x512_S1x512x512_0_0_0

/-- What the body leaves in the output's staging buffer: its one store, of the distance matrix of the slab it loaded. -/
def dOut (x0 : Vec F S1x1024x512 .f32) : Vec F S1x512x512 .bf16 :=
  View.canon [⟨rOut, k0_pay1 (View.ld x0 rIn)⟩]

/-- That store covers the buffer. -/
theorem dOut_cover (p0 : Vec F S1x512x512 .bf16) (y : S1x512x512.Idx) :
    ∃ pc ∈ ([⟨rOut, p0⟩] : List (View.Piece (Elt F) S1x512x512 .bf16)), y ∈ pc.1.set :=
  View.cover_of_tiled [⟨rOut, p0⟩] S1x512x512.size (by rfl) y

set_option maxHeartbeats 1000000 in
/-- The body on whole staging memrefs, the slab's at contents `x0` and the output's at anything, runs to the continuation
    with the slab's buffer as it was and the output's at `dOut x0`. -/
theorem sound_kernel (c : Dev nD) (E : Set ℕ) (i : grid0.Coords) (arg1 : Memref sig .tc .vmem S1x1024x512 .f32) (harg1 : arg1.IsWhole)
    (arg2 : Memref sig .tc .vmem S1x512x512 .bf16) (harg2 : arg2.IsWhole)
    (x0 : Vec F S1x1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (dOut x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dOut_cover _)

/-- The proof data of the first pipeline on core `c`: the arrays as the region finds them; after the body at point `t` the
    slab's buffer at the slab, the output's at the distance matrix of the slab; nothing kept between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => dOut (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = dOut (blk V c 0 t) := by dsimp only [dat]

theorem before_0 (c : Dev nD) (t : Fin cfg0.N) (d) : (dat V c).before 0 t d = blk V c 0 t :=
  before_in_of V (dat V c) (A_eq V c 0) (after_0 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Dist

end
-- ==== Proof.KernelProjRegion.lean ====
/-
  The second pallas_call: 32 grid points, point `t` holding columns 8192 t .. 8192 t + 8191 of the flattened distance
  matrix (32 x 262144) and the matching rows of the weight matrix (262144 x 256). A scratch buffer (32 x 256) carries the
  running product: zeroed at the first point, the point's partial product added at every point; at the last point the
  bias row is added, each row divided by the larger of its Euclidean norm and a small constant, and the result stored into
  the output's block (the only point at which the output is written, and written back). Here: the scratch's contents after
  each point by recursion on the point, what the last point stores, the body's triple in each of the three control cases,
  the invariant carrying the scratch between points, and the per-point obligation — at any float instance and at any
  contents `V` the region is entered with.
-/
import proofs.«163417_j67276367724779_1_alg».proof.Proof.Gen.Kernel.Launch
import proofs.«163417_j67276367724779_1_alg».proof.Proof.Gen.Kernel.Skeleton
import proofs.«163417_j67276367724779_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions, in closed form over the grid -/

/-- "This is the first point": the condition of the body's first branch, from the grid coordinate. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- "This is the last point": the condition of the body's second branch. -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-- The whole-buffer rectangles the body reads and writes through. -/
abbrev rAcc : Rect S32x256 := Rect.unit (s := S32x256) ![0, 0] S32x256.size inb_S32x256_S32x256_0_0
abbrev rW : Rect S8192x256 := Rect.unit (s := S8192x256) ![0, 0] S8192x256.size inb_S8192x256_S8192x256_0_0
abbrev rD : Rect S32x8192 := Rect.unit (s := S32x8192) ![0, 0] S32x8192.size inb_S32x8192_S32x8192_0_0
abbrev rB : Rect S1x256 := Rect.unit (s := S1x256) ![0, 0] S1x256.size inb_S1x256_S1x256_0_0

/-- The scratch operand: a whole scoped buffer of the kernel's own. -/
abbrev accM : Memref sig .tc .vmem S32x256 .f32 := Memref.whole cc1_scratch0

theorem zero2 : (![0, 0] : Fin 2 → Nat) = fun _ => 0 := by funext a; fin_cases a <;> rfl

/-- After a store through the whole buffer, LAST, the buffer reads back as that store's payload, whatever was stored before. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩)]
  exact View.canon_cons_unit_zero h inb w L

/-- A load through the whole buffer of a whole memref held at `X` reads `X`. -/
theorem readAt_whole {S : Shape} {e : EltTy} (M : Memref sig .tc .vmem S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread, View.ld_unit_zero h]

/-! ## The body's triple, case by case -/

set_option maxHeartbeats 1000000 in
/-- A MIDDLE point (neither branch taken): the scratch, found at `xs`, is left at `xs` plus the point's partial product;
    every window's buffer is left as found. -/
theorem run_middle (c : Dev nD) (E : Set ℕ) (i : grid1.Coords) (hc0 : ¬isFirst i) (hc1 : ¬isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xo : Vec F S32x256 .f32) (xs : Vec F S32x256 .f32)
    (K : PUnit → sProp 𝕄) :
    iprop(owns (c : Thread nD τ) arg1 fullShare xd ∗ owns (c : Thread nD τ) arg2 fullShare xw ∗ owns (c : Thread nD τ) arg3 fullShare xb
        ∗ owns (c : Thread nD τ) arg4 fullShare xo ∗ owns (c : Thread nD τ) arg5 fullShare xs
        ∗ (iprop(owns (c : Thread nD τ) arg1 fullShare xd ∗ owns (c : Thread nD τ) arg2 fullShare xw ∗ owns (c : Thread nD τ) arg3 fullShare xb
            ∗ owns (c : Thread nD τ) arg4 fullShare xo ∗ owns (c : Thread nD τ) arg5 fullShare (k1_pay2 xw xs xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [read_whole_store _ _ zero2, readAt_whole arg2 harg2 xw zero2, readAt_whole arg5 harg5 xs zero2, readAt_whole arg1 harg1 xd zero2]

set_option maxHeartbeats 1000000 in
/-- The FIRST point (first branch taken): the scratch, found at anything, is zeroed and then left at the point's partial
    product added to the zeros. -/
theorem run_first (c : Dev nD) (E : Set ℕ) (i : grid1.Coords) (hc0 : isFirst i) (hc1 : ¬isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xo : Vec F S32x256 .f32)
    (K : PUnit → sProp 𝕄) :
    iprop(owns (c : Thread nD τ) arg1 fullShare xd ∗ owns (c : Thread nD τ) arg2 fullShare xw ∗ owns (c : Thread nD τ) arg3 fullShare xb
        ∗ owns (c : Thread nD τ) arg4 fullShare xo ∗ (∃ d, owns (c : Thread nD τ) arg5 fullShare d)
        ∗ (iprop(owns (c : Thread nD τ) arg1 fullShare xd ∗ owns (c : Thread nD τ) arg2 fullShare xw ∗ owns (c : Thread nD τ) arg3 fullShare xb
            ∗ owns (c : Thread nD τ) arg4 fullShare xo ∗ owns (c : Thread nD τ) arg5 fullShare (k1_pay2 xw (k1_pay1 (F := F)) xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_words
  rw [read_whole_store _ _ zero2, View.readCov_unit_zero _ zero2, readAt_whole arg2 harg2 xw zero2, readAt_whole arg1 harg1 xd zero2]

set_option maxHeartbeats 1000000 in
/-- The LAST point (second branch taken): the scratch, found at `xs`, is left at `xs` plus the point's partial product, and
    the output's buffer at the normalized sum of that and the bias row. -/
theorem run_last (c : Dev nD) (E : Set ℕ) (i : grid1.Coords) (hc0 : ¬isFirst i) (hc1 : isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xs : Vec F S32x256 .f32)
    (K : PUnit → sProp 𝕄) :
    iprop(owns (c : Thread nD τ) arg1 fullShare xd ∗ owns (c : Thread nD τ) arg2 fullShare xw ∗ owns (c : Thread nD τ) arg3 fullShare xb
        ∗ (∃ d, owns (c : Thread nD τ) arg4 fullShare d) ∗ owns (c : Thread nD τ) arg5 fullShare xs
        ∗ (iprop(owns (c : Thread nD τ) arg1 fullShare xd ∗ owns (c : Thread nD τ) arg2 fullShare xw ∗ owns (c : Thread nD τ) arg3 fullShare xb
            ∗ owns (c : Thread nD τ) arg4 fullShare (k1_pay3 (k1_pay2 xw xs xd) xb) ∗ owns (c : Thread nD τ) arg5 fullShare (k1_pay2 xw xs xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_whole_store _ _ zero2, View.readCov_unit_zero _ zero2, readAt_whole arg2 harg2 xw zero2, readAt_whole arg5 harg5 xs zero2, readAt_whole arg1 harg1 xd zero2, readAt_whole arg3 harg3 xb zero2]
  iexists _; isplitr
  swap; · iexact H5
  ipureintro
  sl_unfold_words
  rw [read_whole_store _ _ zero2, readAt_whole arg2 harg2 xw zero2, readAt_whole arg5 harg5 xs zero2, readAt_whole arg1 harg1 xd zero2]

/-! ## The scratch point by point, and what the last point stores -/

/-- The running product after point `n`: the first point's partial product added to the zeros; then each point's partial
    product added to what the point before left. -/
def acc (c : Dev nD) : (n : ℕ) → n < cfg1.N → Vec F S32x256 .f32
  | 0, h => k1_pay2 (blk V c 1 ⟨0, h⟩) (k1_pay1 (F := F)) (blk V c 0 ⟨0, h⟩)
  | n + 1, h => k1_pay2 (blk V c 1 ⟨n + 1, h⟩) (acc c n (Nat.lt_of_succ_lt h)) (blk V c 0 ⟨n + 1, h⟩)

theorem acc_zero (c : Dev nD) (t : Fin cfg1.N) (hz : t.val = 0) :
    acc V c t.val t.isLt = k1_pay2 (blk V c 1 t) (k1_pay1 (F := F)) (blk V c 0 t) := by
  obtain ⟨n, hn⟩ := t
  cases n with
  | zero => rfl
  | succ n => exact absurd hz (Nat.succ_ne_zero n)

theorem acc_pos (c : Dev nD) (t : Fin cfg1.N) (hz : t.val ≠ 0) :
    acc V c t.val t.isLt = k1_pay2 (blk V c 1 t) (acc V c (t.val - 1) (Nat.lt_of_le_of_lt (Nat.sub_le _ _) t.isLt)) (blk V c 0 t) := by
  obtain ⟨n, hn⟩ := t
  cases n with
  | zero => exact absurd rfl hz
  | succ n => rfl

/-- What the body stores into the output's buffer at point `t` (it does so at the last point only; elsewhere nothing consults this). -/
def outAt (c : Dev nD) (t : Fin cfg1.N) : Vec F S32x256 .f32 :=
  k1_pay3 (acc V c t.val t.isLt) (blk V c 2 t)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-! ## The invariant -/

/-- The first region's four staging buffers, which this region never touches, each whole at some contents. -/
abbrev others (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d))

/-- What the region is handed beside its windows: those four buffers, the scratch at some contents, the generator register. -/
theorem PhiA_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) accM fullShare d)) ∗ (∃ r, prngReg c r)) := by
  unfold Pipeline.ΦA; rw [scopedRest1_eq]; simp only [accM, owns_whole]; try rfl

/-- Before point `n`: at the first point what the region was handed; afterwards the same with the scratch at the running
    product the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c n hn)) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c (n - 1) (by omega))) ∗ (∃ r, prngReg c r)) := by
  cases n with
  | zero => exact absurd rfl hz
  | succ n => rfl

/-! ## The proof data -/

/-- The proof data of the second pipeline on core `c`: the arrays as the region finds them; after the body at point `t` each
    input's buffer at its block and the output's at `outAt`; the invariant carrying the running product; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]

/-- Each input's current staging buffer holds its block at every point, fetched there or not (the bias row is fetched once:
    its block index never moves). -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: each input's buffer holds its block; the grid coordinate says which of the three cases the point
    is in; the invariant hands the body the scratch at what the point before left (at anything, at the first point) and takes it
    back at this point's running product; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  by_cases h0 : t.val = 0
  · have hc0 : isFirst (grid1.coords t) := (isFirst_iff t).mpr h0
    have hc1 : ¬isLast (grid1.coords t) := fun h => by have := (isLast_iff t).mp h; omega
    rw [Dat.leavesExact_idle (dat V c) 3 t (idle_3 t hc1) (noFlush_3 t hc1)]
    rw [acc_zero V c t h0]
    rw [Phi_castSucc V c t, PhiS_zero V c _ _ h0, PhiA_eq]
    iintro ⟨⟨⟨Ha, Hb, Hc, Hd, HS⟩, Hg⟩, Ho, ⟨%d0, H0⟩, ⟨%d1, H1⟩, ⟨%d2, H2⟩, ⟨%d3, H3⟩⟩
    iapply (run_first c Set.univ (grid1.coords t) hc0 hc1 _ _ _ _ _ _ _ _ _ _ (blk V c 0 t) (blk V c 1 t) (blk V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    isplitl [H2]; · iexact H2
    iexists _; iexact H3
  · have hc0 : ¬isFirst (grid1.coords t) := fun h => h0 ((isFirst_iff t).mp h)
    rw [acc_pos V c t h0]
    rw [Phi_castSucc V c t, PhiS_pos V c _ _ h0]
    by_cases h1 : t.val = 31
    · have hc1 : isLast (grid1.coords t) := (isLast_iff t).mpr h1
      rw [show (dat V c).leavesExact 3 t = owns (c : Thread nD τ) (st1_3 t) fullShare ((dat V c).after 3 t) from by
        unfold Dat.leavesExact; rw [live_3 t hc1], after_3]
      unfold outAt
      rw [acc_pos V c t h0]
      iintro ⟨⟨⟨Ha, Hb, Hc, Hd, HS⟩, Hg⟩, Ho, ⟨%d0, H0⟩, ⟨%d1, H1⟩, ⟨%d2, H2⟩, ⟨%d3, H3⟩⟩
      iapply (run_last c Set.univ (grid1.coords t) hc0 hc1 _ _ _ _ _ _ _ _ _ _ (blk V c 0 t) (blk V c 1 t) (blk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      iexact H3
    · have hc1 : ¬isLast (grid1.coords t) := fun h => h1 ((isLast_iff t).mp h)
      rw [Dat.leavesExact_idle (dat V c) 3 t (idle_3 t hc1) (noFlush_3 t hc1)]
      iintro ⟨⟨⟨Ha, Hb, Hc, Hd, HS⟩, Hg⟩, Ho, ⟨%d0, H0⟩, ⟨%d1, H1⟩, ⟨%d2, H2⟩, ⟨%d3, H3⟩⟩
      iapply (run_middle c Set.univ (grid1.coords t) hc0 hc1 _ _ _ _ _ _ _ _ _ _ (blk V c 0 t) (blk V c 1 t) (blk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives it back, the running product's named contents forgotten. -/
theorem phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.Kernel.Proj

end
-- ==== Proof.KernelTwoRegions.lean ====
/-
  The program's run. @main is: the first pallas_call (the distance matrices, into a (32 x 512 x 512) buffer), two reshapes on
  the host (that buffer flattened to (32 x 262144); the bias to a (1 x 256) row), the second pallas_call (the projection, bias
  and normalization). The contents of every unscoped buffer at each of the four boundaries are a fold from the launch memory:
  a region replaces its windows' arrays by what its write-backs leave, a host stretch applies its operations. Each region is
  entered from the contents the item before it left, with its own proof data at those contents; the launch then says: every
  weakly fair execution terminates, nothing faulting, and the final memory holds every unscoped buffer at the fold's last
  stage. Read at an argument that is the launch contents (no item writes an argument); read at the result it is what the
  second pipeline's last write-back leaves.
-/
import proofs.«163417_j67276367724779_1_alg».proof.Proof.KernelDistRegion
import proofs.«163417_j67276367724779_1_alg».proof.Proof.KernelProjRegion

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (Dist.dat (V0 m ρ) c).arrAt w cfg0.N
theorem W1_arr (c : Dev nD) (w : Fin cfg0.W) :
    W1 m ρ c (Proc.devRef .tc (Pipeline.arrRef spec0 w)) = (Dist.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Dist.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (Proj.dat (V2 m ρ) c).arrAt w cfg1.N
theorem W3_arr (c : Dev nD) (w : Fin cfg1.W) :
    W3 m ρ c (Proc.devRef .tc (Pipeline.arrRef spec1 w)) = (Proj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Proj.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write neither an argument nor the first region's output. -/
theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ### The arguments end as launched -/

theorem W3_main_arg0 (c : Dev nD) : W3 m ρ c (Proc.devRef .tc main_arg0) = m ((c : Thread nD τ).loc main_arg0) :=
  (W3_of_ne m ρ c main_arg0 (by decide)).trans <| (W2_of_not_written m ρ c main_arg0 (by decide) (by decide)).trans <|
    (W1_of_ne m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_not_written m ρ c main_arg1 (by decide) (by decide)).trans <|
    (W1_of_ne m ρ c main_arg1 (by decide)).trans rfl
theorem W3_main_arg4 (c : Dev nD) : W3 m ρ c (Proc.devRef .tc main_arg4) = m ((c : Thread nD τ).loc main_arg4) :=
  (W3_of_ne m ρ c main_arg4 (by decide)).trans <| (W2_of_not_written m ρ c main_arg4 (by decide) (by decide)).trans <|
    (W1_of_ne m ρ c main_arg4 (by decide)).trans rfl
/-- The first region only reads `main_arg2` (its input window's array). -/
theorem W3_main_arg2 (c : Dev nD) : W3 m ρ c (Proc.devRef .tc main_arg2) = m ((c : Thread nD τ).loc main_arg2) :=
  (W3_of_ne m ρ c main_arg2 (by decide)).trans <| (W2_of_not_written m ρ c main_arg2 (by decide) (by decide)).trans <|
    (W1_arr m ρ c 0).trans (((Dist.dat (V0 m ρ) c).arrAt_in 0 rfl _).trans (Dist.A_eq (V0 m ρ) c 0))
/-- The second region only reads `main_arg3` (an input window's array). -/
theorem W3_main_arg3 (c : Dev nD) : W3 m ρ c (Proc.devRef .tc main_arg3) = m ((c : Thread nD τ).loc main_arg3) :=
  (W3_arr m ρ c 1).trans <| ((Proj.dat (V2 m ρ) c).arrAt_in 1 rfl _).trans <| (Proj.A_eq (V2 m ρ) c 1).trans <|
    (W2_of_not_written m ρ c main_arg3 (by decide) (by decide)).trans <| (W1_of_ne m ρ c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dist.dat (V0 m ρ) c
  | ⟨1, _⟩ => fun c => Proj.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant takes the
    scoped rest and the generator register in before the first point and gives them back after the last, the running product's
    named contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Proj.phi_in (V2 m ρ) c
    unfold Pipeline.ΦA at h
    show _ ⊢ (Proj.dat (V2 m ρ) c).Φ 0
    iintro ⟨Hp, -, Hr⟩
    iapply h
    isplitl [Hr]; · iexact Hr
    iexact Hp
  hout c := by
    rw [Pipeline.ownSems0_none]
    have h := Proj.phi_out (V2 m ρ) c
    unfold Pipeline.ΦA at h
    show (Proj.dat (V2 m ρ) c).Φ (Fin.last cfg1.N) ⊢ _
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory holds each unscoped buffer at the fold's last stage `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE RESULT, with the frame: the result buffer ends at what the second pipeline's last write-back leaves. -/
theorem run_result : θ_run defs (onTc (τ := τ) (main (F := F))) ⟨m, fun _ => 0, ρ⟩ (fun r => ∀ c : Dev nD,
      r.2.mem ((c.tc : Thread nD τ).loc main_v3) = (Proj.dat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Run

end
-- ==== Proof.DistRegion.lean ====
/-
  The first pallas_call: one grid point per batch. The body reads its batch's (1024 x 512) slab of the input, forms the
  Gram matrix of the slab's columns, that matrix's square and its row and column sums of squares, and stores the
  (512 x 512) matrix of clamped square-rooted distances into its batch's block of the output. Here: what the body leaves
  in the output's staging buffer as a function of the slab it loaded, the body's triple, and the per-point obligation the
  pipeline asks of it, at any float instance and at any contents `V` the region is entered with.
-/
import proofs.«163417_j67276367724779_1_alg».proof.Proof.Gen.KernelIdeal.Launch
import proofs.«163417_j67276367724779_1_alg».proof.Proof.Gen.KernelIdeal.Skeleton
import proofs.«163417_j67276367724779_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds batch `t`'s slab at point `t`, for any proof data over `V` whose body leaves it in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole slab, and the whole output block, as rectangles. -/
abbrev rIn : Rect S1x1024x512 := Rect.unit (s := S1x1024x512) ![0, 0, 0] S1x1024x512.size inb_S1x1024x512_S1x1024x512_0_0_0
abbrev rOut : Rect S1x512x512 := Rect.unit (s := S1x512x512) ![0, 0, 0] S1x512x512.size inb_S1x512x512_S1x512x512_0_0_0

/-- What the body leaves in the output's staging buffer: its one store, of the distance matrix of the slab it loaded. -/
def dOut (x0 : Vec F S1x1024x512 .f32) : Vec F S1x512x512 .bf16 :=
  View.canon [⟨rOut, k0_pay1 (View.ld x0 rIn)⟩]

/-- That store covers the buffer. -/
theorem dOut_cover (p0 : Vec F S1x512x512 .bf16) (y : S1x512x512.Idx) :
    ∃ pc ∈ ([⟨rOut, p0⟩] : List (View.Piece (Elt F) S1x512x512 .bf16)), y ∈ pc.1.set :=
  View.cover_of_tiled [⟨rOut, p0⟩] S1x512x512.size (by rfl) y

set_option maxHeartbeats 1000000 in
/-- The body on whole staging memrefs, the slab's at contents `x0` and the output's at anything, runs to the continuation
    with the slab's buffer as it was and the output's at `dOut x0`. -/
theorem sound_kernel (c : Dev nD) (E : Set ℕ) (i : grid0.Coords) (arg1 : Memref sig .tc .vmem S1x1024x512 .f32) (harg1 : arg1.IsWhole)
    (arg2 : Memref sig .tc .vmem S1x512x512 .bf16) (harg2 : arg2.IsWhole)
    (x0 : Vec F S1x1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (dOut x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dOut_cover _)

/-- The proof data of the first pipeline on core `c`: the arrays as the region finds them; after the body at point `t` the
    slab's buffer at the slab, the output's at the distance matrix of the slab; nothing kept between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => dOut (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = dOut (blk V c 0 t) := by dsimp only [dat]

theorem before_0 (c : Dev nD) (t : Fin cfg0.N) (d) : (dat V c).before 0 t d = blk V c 0 t :=
  before_in_of V (dat V c) (A_eq V c 0) (after_0 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Dist

end
-- ==== Proof.ProjRegion.lean ====
/-
  The second pallas_call: 32 grid points, point `t` holding columns 8192 t .. 8192 t + 8191 of the flattened distance
  matrix (32 x 262144) and the matching rows of the weight matrix (262144 x 256). A scratch buffer (32 x 256) carries the
  running product: zeroed at the first point, the point's partial product added at every point; at the last point the
  bias row is added, each row divided by the larger of its Euclidean norm and a small constant, and the result stored into
  the output's block (the only point at which the output is written, and written back). Here: the scratch's contents after
  each point by recursion on the point, what the last point stores, the body's triple in each of the three control cases,
  the invariant carrying the scratch between points, and the per-point obligation — at any float instance and at any
  contents `V` the region is entered with.
-/
import proofs.«163417_j67276367724779_1_alg».proof.Proof.Gen.KernelIdeal.Launch
import proofs.«163417_j67276367724779_1_alg».proof.Proof.Gen.KernelIdeal.Skeleton
import proofs.«163417_j67276367724779_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions, in closed form over the grid -/

/-- "This is the first point": the condition of the body's first branch, from the grid coordinate. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- "This is the last point": the condition of the body's second branch. -/
abbrev isLast (i : grid1.Coords) : Prop := k1_cond2 i = 1#1
theorem isLast_iff : ∀ t : Fin cfg1.N, isLast (grid1.coords t) ↔ t.val = 31 :=
  (by decide +kernel : ∀ t : Fin grid1.N, isLast (grid1.coords t) ↔ t.val = 31)

/-- The whole-buffer rectangles the body reads and writes through. -/
abbrev rAcc : Rect S32x256 := Rect.unit (s := S32x256) ![0, 0] S32x256.size inb_S32x256_S32x256_0_0
abbrev rW : Rect S8192x256 := Rect.unit (s := S8192x256) ![0, 0] S8192x256.size inb_S8192x256_S8192x256_0_0
abbrev rD : Rect S32x8192 := Rect.unit (s := S32x8192) ![0, 0] S32x8192.size inb_S32x8192_S32x8192_0_0
abbrev rB : Rect S1x256 := Rect.unit (s := S1x256) ![0, 0] S1x256.size inb_S1x256_S1x256_0_0

/-- The scratch operand: a whole scoped buffer of the kernel's own. -/
abbrev accM : Memref sig .tc .vmem S32x256 .f32 := Memref.whole cc1_scratch0

theorem zero2 : (![0, 0] : Fin 2 → Nat) = fun _ => 0 := by funext a; fin_cases a <;> rfl

/-- After a store through the whole buffer, LAST, the buffer reads back as that store's payload, whatever was stored before. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩)]
  exact View.canon_cons_unit_zero h inb w L

/-- A load through the whole buffer of a whole memref held at `X` reads `X`. -/
theorem readAt_whole {S : Shape} {e : EltTy} (M : Memref sig .tc .vmem S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread, View.ld_unit_zero h]

/-! ## The body's triple, case by case -/

set_option maxHeartbeats 1000000 in
/-- A MIDDLE point (neither branch taken): the scratch, found at `xs`, is left at `xs` plus the point's partial product;
    every window's buffer is left as found. -/
theorem run_middle (c : Dev nD) (E : Set ℕ) (i : grid1.Coords) (hc0 : ¬isFirst i) (hc1 : ¬isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xo : Vec F S32x256 .f32) (xs : Vec F S32x256 .f32)
    (K : PUnit → sProp 𝕄) :
    iprop(owns (c : Thread nD τ) arg1 fullShare xd ∗ owns (c : Thread nD τ) arg2 fullShare xw ∗ owns (c : Thread nD τ) arg3 fullShare xb
        ∗ owns (c : Thread nD τ) arg4 fullShare xo ∗ owns (c : Thread nD τ) arg5 fullShare xs
        ∗ (iprop(owns (c : Thread nD τ) arg1 fullShare xd ∗ owns (c : Thread nD τ) arg2 fullShare xw ∗ owns (c : Thread nD τ) arg3 fullShare xb
            ∗ owns (c : Thread nD τ) arg4 fullShare xo ∗ owns (c : Thread nD τ) arg5 fullShare (k1_pay2 xw xs xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [read_whole_store _ _ zero2, readAt_whole arg2 harg2 xw zero2, readAt_whole arg5 harg5 xs zero2, readAt_whole arg1 harg1 xd zero2]

set_option maxHeartbeats 1000000 in
/-- The FIRST point (first branch taken): the scratch, found at anything, is zeroed and then left at the point's partial
    product added to the zeros. -/
theorem run_first (c : Dev nD) (E : Set ℕ) (i : grid1.Coords) (hc0 : isFirst i) (hc1 : ¬isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xo : Vec F S32x256 .f32)
    (K : PUnit → sProp 𝕄) :
    iprop(owns (c : Thread nD τ) arg1 fullShare xd ∗ owns (c : Thread nD τ) arg2 fullShare xw ∗ owns (c : Thread nD τ) arg3 fullShare xb
        ∗ owns (c : Thread nD τ) arg4 fullShare xo ∗ (∃ d, owns (c : Thread nD τ) arg5 fullShare d)
        ∗ (iprop(owns (c : Thread nD τ) arg1 fullShare xd ∗ owns (c : Thread nD τ) arg2 fullShare xw ∗ owns (c : Thread nD τ) arg3 fullShare xb
            ∗ owns (c : Thread nD τ) arg4 fullShare xo ∗ owns (c : Thread nD τ) arg5 fullShare (k1_pay2 xw (k1_pay1 (F := F)) xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_words
  rw [read_whole_store _ _ zero2, View.readCov_unit_zero _ zero2, readAt_whole arg2 harg2 xw zero2, readAt_whole arg1 harg1 xd zero2]

set_option maxHeartbeats 1000000 in
/-- The LAST point (second branch taken): the scratch, found at `xs`, is left at `xs` plus the point's partial product, and
    the output's buffer at the normalized sum of that and the bias row. -/
theorem run_last (c : Dev nD) (E : Set ℕ) (i : grid1.Coords) (hc0 : ¬isFirst i) (hc1 : isLast i)
    (arg1 : Memref sig .tc .vmem S32x8192 .bf16) (harg1 : arg1.IsWhole) (arg2 : Memref sig .tc .vmem S8192x256 .f32) (harg2 : arg2.IsWhole)
    (arg3 : Memref sig .tc .vmem S1x256 .f32) (harg3 : arg3.IsWhole) (arg4 : Memref sig .tc .vmem S32x256 .f32) (harg4 : arg4.IsWhole)
    (arg5 : Memref sig .tc .vmem S32x256 .f32) (harg5 : arg5.IsWhole)
    (xd : Vec F S32x8192 .bf16) (xw : Vec F S8192x256 .f32) (xb : Vec F S1x256 .f32) (xs : Vec F S32x256 .f32)
    (K : PUnit → sProp 𝕄) :
    iprop(owns (c : Thread nD τ) arg1 fullShare xd ∗ owns (c : Thread nD τ) arg2 fullShare xw ∗ owns (c : Thread nD τ) arg3 fullShare xb
        ∗ (∃ d, owns (c : Thread nD τ) arg4 fullShare d) ∗ owns (c : Thread nD τ) arg5 fullShare xs
        ∗ (iprop(owns (c : Thread nD τ) arg1 fullShare xd ∗ owns (c : Thread nD τ) arg2 fullShare xw ∗ owns (c : Thread nD τ) arg3 fullShare xb
            ∗ owns (c : Thread nD τ) arg4 fullShare (k1_pay3 (k1_pay2 xw xs xd) xb) ∗ owns (c : Thread nD τ) arg5 fullShare (k1_pay2 xw xs xd)) -∗ K ⟨⟩))
      ⊢ wp frame (wpE (defs₀ (F := F)) Variants.none c none) E (cc1__mm_kernel i arg1 harg1 arg2 harg2 arg3 harg3 arg4 harg4 arg5 harg5) K := by
  simp only [cc1__mm_kernel_eq_skeleton]; unfold cc1__mm_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_whole_store _ _ zero2, View.readCov_unit_zero _ zero2, readAt_whole arg2 harg2 xw zero2, readAt_whole arg5 harg5 xs zero2, readAt_whole arg1 harg1 xd zero2, readAt_whole arg3 harg3 xb zero2]
  iexists _; isplitr
  swap; · iexact H5
  ipureintro
  sl_unfold_words
  rw [read_whole_store _ _ zero2, readAt_whole arg2 harg2 xw zero2, readAt_whole arg5 harg5 xs zero2, readAt_whole arg1 harg1 xd zero2]

/-! ## The scratch point by point, and what the last point stores -/

/-- The running product after point `n`: the first point's partial product added to the zeros; then each point's partial
    product added to what the point before left. -/
def acc (c : Dev nD) : (n : ℕ) → n < cfg1.N → Vec F S32x256 .f32
  | 0, h => k1_pay2 (blk V c 1 ⟨0, h⟩) (k1_pay1 (F := F)) (blk V c 0 ⟨0, h⟩)
  | n + 1, h => k1_pay2 (blk V c 1 ⟨n + 1, h⟩) (acc c n (Nat.lt_of_succ_lt h)) (blk V c 0 ⟨n + 1, h⟩)

theorem acc_zero (c : Dev nD) (t : Fin cfg1.N) (hz : t.val = 0) :
    acc V c t.val t.isLt = k1_pay2 (blk V c 1 t) (k1_pay1 (F := F)) (blk V c 0 t) := by
  obtain ⟨n, hn⟩ := t
  cases n with
  | zero => rfl
  | succ n => exact absurd hz (Nat.succ_ne_zero n)

theorem acc_pos (c : Dev nD) (t : Fin cfg1.N) (hz : t.val ≠ 0) :
    acc V c t.val t.isLt = k1_pay2 (blk V c 1 t) (acc V c (t.val - 1) (Nat.lt_of_le_of_lt (Nat.sub_le _ _) t.isLt)) (blk V c 0 t) := by
  obtain ⟨n, hn⟩ := t
  cases n with
  | zero => exact absurd rfl hz
  | succ n => rfl

/-- What the body stores into the output's buffer at point `t` (it does so at the last point only; elsewhere nothing consults this). -/
def outAt (c : Dev nD) (t : Fin cfg1.N) : Vec F S32x256 .f32 :=
  k1_pay3 (acc V c t.val t.isLt) (blk V c 2 t)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
theorem live_3 : ∀ t : Fin cfg1.N, isLast (grid1.coords t) → cfg1.idle 3 (grid1.coords t) = false := by decide +kernel

/-! ## The invariant -/

/-- The first region's four staging buffers, which this region never touches, each whole at some contents. -/
abbrev others (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d))

/-- What the region is handed beside its windows: those four buffers, the scratch at some contents, the generator register. -/
theorem PhiA_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) accM fullShare d)) ∗ (∃ r, prngReg c r)) := by
  unfold Pipeline.ΦA; rw [scopedRest1_eq]; simp only [accM, owns_whole]; try rfl

/-- Before point `n`: at the first point what the region was handed; afterwards the same with the scratch at the running
    product the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c n hn)) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ owns (c : Thread nD τ) accM fullShare (acc V c (n - 1) (by omega))) ∗ (∃ r, prngReg c r)) := by
  cases n with
  | zero => exact absurd rfl hz
  | succ n => rfl

/-! ## The proof data -/

/-- The proof data of the second pipeline on core `c`: the arrays as the region finds them; after the body at point `t` each
    input's buffer at its block and the output's at `outAt`; the invariant carrying the running product; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outAt V c t := by dsimp only [dat]

/-- Each input's current staging buffer holds its block at every point, fetched there or not (the bias row is fetched once:
    its block index never moves). -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: each input's buffer holds its block; the grid coordinate says which of the three cases the point
    is in; the invariant hands the body the scratch at what the point before left (at anything, at the first point) and takes it
    back at this point's running product; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  rw [show (dat V c).leavesExact 2 t = owns (c : Thread nD τ) (st1_2 t) fullShare ((dat V c).after 2 t) from by
    unfold Dat.leavesExact; rw [live_2 t], after_2]
  by_cases h0 : t.val = 0
  · have hc0 : isFirst (grid1.coords t) := (isFirst_iff t).mpr h0
    have hc1 : ¬isLast (grid1.coords t) := fun h => by have := (isLast_iff t).mp h; omega
    rw [Dat.leavesExact_idle (dat V c) 3 t (idle_3 t hc1) (noFlush_3 t hc1)]
    rw [acc_zero V c t h0]
    rw [Phi_castSucc V c t, PhiS_zero V c _ _ h0, PhiA_eq]
    iintro ⟨⟨⟨Ha, Hb, Hc, Hd, HS⟩, Hg⟩, Ho, ⟨%d0, H0⟩, ⟨%d1, H1⟩, ⟨%d2, H2⟩, ⟨%d3, H3⟩⟩
    iapply (run_first c Set.univ (grid1.coords t) hc0 hc1 _ _ _ _ _ _ _ _ _ _ (blk V c 0 t) (blk V c 1 t) (blk V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [Ha Hb Hc Hd HS Hg]
    · isplitl [Ha Hb Hc Hd HS]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    isplitl [H2]; · iexact H2
    iexists _; iexact H3
  · have hc0 : ¬isFirst (grid1.coords t) := fun h => h0 ((isFirst_iff t).mp h)
    rw [acc_pos V c t h0]
    rw [Phi_castSucc V c t, PhiS_pos V c _ _ h0]
    by_cases h1 : t.val = 31
    · have hc1 : isLast (grid1.coords t) := (isLast_iff t).mpr h1
      rw [show (dat V c).leavesExact 3 t = owns (c : Thread nD τ) (st1_3 t) fullShare ((dat V c).after 3 t) from by
        unfold Dat.leavesExact; rw [live_3 t hc1], after_3]
      unfold outAt
      rw [acc_pos V c t h0]
      iintro ⟨⟨⟨Ha, Hb, Hc, Hd, HS⟩, Hg⟩, Ho, ⟨%d0, H0⟩, ⟨%d1, H1⟩, ⟨%d2, H2⟩, ⟨%d3, H3⟩⟩
      iapply (run_last c Set.univ (grid1.coords t) hc0 hc1 _ _ _ _ _ _ _ _ _ _ (blk V c 0 t) (blk V c 1 t) (blk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      iexact H3
    · have hc1 : ¬isLast (grid1.coords t) := fun h => h1 ((isLast_iff t).mp h)
      rw [Dat.leavesExact_idle (dat V c) 3 t (idle_3 t hc1) (noFlush_3 t hc1)]
      iintro ⟨⟨⟨Ha, Hb, Hc, Hd, HS⟩, Hg⟩, Ho, ⟨%d0, H0⟩, ⟨%d1, H1⟩, ⟨%d2, H2⟩, ⟨%d3, H3⟩⟩
      iapply (run_middle c Set.univ (grid1.coords t) hc0 hc1 _ _ _ _ _ _ _ _ _ _ (blk V c 0 t) (blk V c 1 t) (blk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives it back, the running product's named contents forgotten. -/
theorem phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

end Cert.KernelIdeal.Proj

end
-- ==== Proof.TwoRegions.lean ====
/-
  The program's run. @main is: the first pallas_call (the distance matrices, into a (32 x 512 x 512) buffer), two reshapes on
  the host (that buffer flattened to (32 x 262144); the bias to a (1 x 256) row), the second pallas_call (the projection, bias
  and normalization). The contents of every unscoped buffer at each of the four boundaries are a fold from the launch memory:
  a region replaces its windows' arrays by what its write-backs leave, a host stretch applies its operations. Each region is
  entered from the contents the item before it left, with its own proof data at those contents; the launch then says: every
  weakly fair execution terminates, nothing faulting, and the final memory holds every unscoped buffer at the fold's last
  stage. Read at an argument that is the launch contents (no item writes an argument); read at the result it is what the
  second pipeline's last write-back leaves.
-/
import proofs.«163417_j67276367724779_1_alg».proof.Proof.DistRegion
import proofs.«163417_j67276367724779_1_alg».proof.Proof.ProjRegion

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (Dist.dat (V0 m ρ) c).arrAt w cfg0.N
theorem W1_arr (c : Dev nD) (w : Fin cfg0.W) :
    W1 m ρ c (Proc.devRef .tc (Pipeline.arrRef spec0 w)) = (Dist.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Dist.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (Proj.dat (V2 m ρ) c).arrAt w cfg1.N
theorem W3_arr (c : Dev nD) (w : Fin cfg1.W) :
    W3 m ρ c (Proc.devRef .tc (Pipeline.arrRef spec1 w)) = (Proj.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Proj.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The reshapes write neither an argument nor the first region's output. -/
theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ### The arguments end as launched -/

theorem W3_main_arg0 (c : Dev nD) : W3 m ρ c (Proc.devRef .tc main_arg0) = m ((c : Thread nD τ).loc main_arg0) :=
  (W3_of_ne m ρ c main_arg0 (by decide)).trans <| (W2_of_not_written m ρ c main_arg0 (by decide) (by decide)).trans <|
    (W1_of_ne m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_not_written m ρ c main_arg1 (by decide) (by decide)).trans <|
    (W1_of_ne m ρ c main_arg1 (by decide)).trans rfl
theorem W3_main_arg4 (c : Dev nD) : W3 m ρ c (Proc.devRef .tc main_arg4) = m ((c : Thread nD τ).loc main_arg4) :=
  (W3_of_ne m ρ c main_arg4 (by decide)).trans <| (W2_of_not_written m ρ c main_arg4 (by decide) (by decide)).trans <|
    (W1_of_ne m ρ c main_arg4 (by decide)).trans rfl
/-- The first region only reads `main_arg2` (its input window's array). -/
theorem W3_main_arg2 (c : Dev nD) : W3 m ρ c (Proc.devRef .tc main_arg2) = m ((c : Thread nD τ).loc main_arg2) :=
  (W3_of_ne m ρ c main_arg2 (by decide)).trans <| (W2_of_not_written m ρ c main_arg2 (by decide) (by decide)).trans <|
    (W1_arr m ρ c 0).trans (((Dist.dat (V0 m ρ) c).arrAt_in 0 rfl _).trans (Dist.A_eq (V0 m ρ) c 0))
/-- The second region only reads `main_arg3` (an input window's array). -/
theorem W3_main_arg3 (c : Dev nD) : W3 m ρ c (Proc.devRef .tc main_arg3) = m ((c : Thread nD τ).loc main_arg3) :=
  (W3_arr m ρ c 1).trans <| ((Proj.dat (V2 m ρ) c).arrAt_in 1 rfl _).trans <| (Proj.A_eq (V2 m ρ) c 1).trans <|
    (W2_of_not_written m ρ c main_arg3 (by decide) (by decide)).trans <| (W1_of_ne m ρ c main_arg3 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dist.dat (V0 m ρ) c
  | ⟨1, _⟩ => fun c => Proj.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant takes the
    scoped rest and the generator register in before the first point and gives them back after the last, the running product's
    named contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Proj.phi_in (V2 m ρ) c
    unfold Pipeline.ΦA at h
    show _ ⊢ (Proj.dat (V2 m ρ) c).Φ 0
    iintro ⟨Hp, -, Hr⟩
    iapply h
    isplitl [Hr]; · iexact Hr
    iexact Hp
  hout c := by
    rw [Pipeline.ownSems0_none]
    have h := Proj.phi_out (V2 m ρ) c
    unfold Pipeline.ΦA at h
    show (Proj.dat (V2 m ρ) c).Φ (Fin.last cfg1.N) ⊢ _
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory holds each unscoped buffer at the fold's last stage `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE RESULT, with the frame: the result buffer ends at what the second pipeline's last write-back leaves. -/
theorem run_result : θ_run defs (onTc (τ := τ) (main (F := F))) ⟨m, fun _ => 0, ρ⟩ (fun r => ∀ c : Dev nD,
      r.2.mem ((c.tc : Thread nD τ).loc main_v3) = (Proj.dat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Run

end
-- ==== Proof.Spec.lean ====
/-
  What both programs compute, as functions of the argument arrays over the extended reals, index by index.
  From the input `x` (32 batches of 1024 x 512):
    * the Gram matrix of batch `b`'s columns, `gram x b n m = Σ_c x[b,c,n] · x[b,c,m]` — symmetric, since the product of extended
      reals commutes;
    * each row's sum of squares `sq x b n = Σ_k gram[n,k]²` and the Gram matrix's square against itself
      `cross x b n m = Σ_k gram[n,k] · gram[m,k]`;
    * the distance matrix `dist x [b,n,m] = √(max(sq[n] + sq[m] − 2 · cross[n,m], ε))`.
  From a flattened distance matrix `D` (32 x 262144), the weights `W` (262144 x 256) and a bias row `β` (1 x 256):
    * `lin D W β r o = Σ_k D[r,k] · W[k,o] + β[0,o]`;
    * `proj D W β [r,o] = lin[r,o] / max(√(Σ_o' lin[r,o']²), ε)`.
  The result is `proj` of the flattened `dist x`, the weight argument and the bias argument as a row.
-/
import Idealize.ShloMosaic.PureOps.Ideal
import Idealize.ShloMosaic.Lib.ValueIdx

noncomputable section

open scoped BigOperators

namespace Cert.Spec

open Idealize.ShloMosaic Idealize.ShloMosaic.ValueIdx

/-- The two literals of the programs: `2` and the clamp `ε` (the same word on both sides, never evaluated). -/
abbrev two : EReal := Ideal.ofBits .f32 0x40000000#32
abbrev eps : EReal := Ideal.ofBits .f32 0x2B8CBCCC#32

/-- The Gram matrix of batch `b`'s columns. -/
def gram (x : (⟨3, ![32, 1024, 512]⟩ : Shape).Idx → EReal) (b : Fin 32) (n m : Fin 512) : EReal :=
  ∑ c : Fin 1024, x (ix3 b c n) * x (ix3 b c m)

/-- It is symmetric. -/
theorem gram_symm (x : (⟨3, ![32, 1024, 512]⟩ : Shape).Idx → EReal) (b : Fin 32) (n m : Fin 512) :
    gram x b n m = gram x b m n := by
  unfold gram; exact Finset.sum_congr rfl fun c _ => mul_comm _ _

/-- A row's sum of squares. -/
def sq (x : (⟨3, ![32, 1024, 512]⟩ : Shape).Idx → EReal) (b : Fin 32) (n : Fin 512) : EReal :=
  ∑ k : Fin 512, gram x b n k * gram x b n k

/-- Two rows' inner product. -/
def cross (x : (⟨3, ![32, 1024, 512]⟩ : Shape).Idx → EReal) (b : Fin 32) (n m : Fin 512) : EReal :=
  ∑ k : Fin 512, gram x b n k * gram x b m k

/-- The distance matrix. -/
def dist (x : (⟨3, ![32, 1024, 512]⟩ : Shape).Idx → EReal) : (⟨3, ![32, 512, 512]⟩ : Shape).Idx → EReal :=
  fun j => Ideal.sqrt (max (sq x (j 0) (j 1) + sq x (j 0) (j 2) - two * cross x (j 0) (j 1) (j 2)) eps)

/-- The distance matrix flattened: entry `[r, 512 n + m]` is `dist[r, n, m]`. -/
def flat (d : (⟨3, ![32, 512, 512]⟩ : Shape).Idx → EReal) : (⟨2, ![32, 262144]⟩ : Shape).Idx → EReal :=
  fun j => d (ix3 (j 0) ⟨(j 1).val / 512, by have := idx2_lt1 j; omega⟩ ⟨(j 1).val % 512, Nat.mod_lt _ (by decide)⟩)

/-- A vector of 256 as a (1 x 256) row. -/
def row (v : (⟨1, ![256]⟩ : Shape).Idx → EReal) : (⟨2, ![1, 256]⟩ : Shape).Idx → EReal :=
  fun j => v (ix1 (j 1))

/-- The projection with its bias. -/
def lin (D : (⟨2, ![32, 262144]⟩ : Shape).Idx → EReal) (W : (⟨2, ![262144, 256]⟩ : Shape).Idx → EReal)
    (β : (⟨2, ![1, 256]⟩ : Shape).Idx → EReal) (r : Fin 32) (o : Fin 256) : EReal :=
  (∑ k : Fin 262144, D (ix2 r k) * W (ix2 k o)) + β (ix2 0 o)

/-- The projection, each row divided by the larger of its Euclidean norm and `ε`. -/
def proj (D : (⟨2, ![32, 262144]⟩ : Shape).Idx → EReal) (W : (⟨2, ![262144, 256]⟩ : Shape).Idx → EReal)
    (β : (⟨2, ![1, 256]⟩ : Shape).Idx → EReal) : (⟨2, ![32, 256]⟩ : Shape).Idx → EReal :=
  fun j => Ideal.div (lin D W β (j 0) (j 1)) (max (Ideal.sqrt (∑ o : Fin 256, lin D W β (j 0) o * lin D W β (j 0) o)) eps)

/-- The whole computation. -/
def out (x : (⟨3, ![32, 1024, 512]⟩ : Shape).Idx → EReal) (W : (⟨2, ![262144, 256]⟩ : Shape).Idx → EReal)
    (v : (⟨1, ![256]⟩ : Shape).Idx → EReal) : (⟨2, ![32, 256]⟩ : Shape).Idx → EReal :=
  proj (flat (dist x)) W (row v)

end Cert.Spec

end
-- ==== Proof.DistValue.lean ====
/-
  The first pallas_call's output array after the run, at the ideal instance: batch `b`'s block is written back at grid point
  `b` and holds the distance matrix of batch `b`'s slab, so the whole array is the distance matrix of the whole input. The
  body forms the Gram matrix's square as rows against COLUMNS and the second sum of squares down the columns; both agree with
  the rows-against-rows forms because the Gram matrix is symmetric.
-/
import proofs.«163417_j67276367724779_1_alg».proof.Proof.DistRegion
import proofs.«163417_j67276367724779_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DistValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## Two layout readings: a vector as a column, and a column spread over columns -/

/-- A vector of `a` entries viewed as an `a × 1` column reads, at `(i, u)`, entry `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast over `b` columns reads, at `(p, c)`, the column's entry `p`. -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry

Each contracts the left factor's second axis with the right factor's first, so entry `(n, m)` is the sum over `k` of the left
factor at `(n, k)` times the right factor at `(k, m)`. -/

theorem lhs_gram_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_gram_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_gram_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_gram_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The first product at `(n, m)`: the sum over the 1024 contracted positions. -/
theorem gram_mm_apply (l : FVec Ideal S512x1024 .bf16) (r : FVec Ideal S1024x512 .bf16) (n m : Fin 512) :
    matmul dot_S512x1024_S1024x512_S512x512_1_0_0_1_n_n none l r (constant (F := Ideal) S512x512 .f32 0x00000000#32) (ix2 n m)
      = ∑ k : Fin 1024, l (ix2 n k) * r (ix2 k m) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 n m) ((ValueIdx.contrEquiv1 dot_S512x1024_S1024x512_S512x512_1_0_0_1_n_n 1024 rfl rfl).symm k) = ix2 n k := funext fun a => Fin.ext (by
    match a with
    | ⟨0, _⟩ => exact lhs_gram_0 _ _
    | ⟨1, _⟩ => exact (lhs_gram_1 _ _).trans hk)
  have er : dot_S512x1024_S1024x512_S512x512_1_0_0_1_n_n.rhsIdx (ix2 n m) ((ValueIdx.contrEquiv1 dot_S512x1024_S1024x512_S512x512_1_0_0_1_n_n 1024 rfl rfl).symm k) = ix2 k m := funext fun a => Fin.ext (by
    match a with
    | ⟨0, _⟩ => exact (rhs_gram_0 _ _).trans hk
    | ⟨1, _⟩ => exact rhs_gram_1 _ _)
  rw [el, er]

theorem lhs_gsq_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_gsq_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_gsq_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_gsq_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The second product at `(n, m)`: rows of the left factor against COLUMNS of the right one. -/
theorem gsq_mm_apply (l : FVec Ideal S512x512 .bf16) (r : FVec Ideal S512x512 .bf16) (n m : Fin 512) :
    matmul dot_S512x512_S512x512_S512x512_1_0_0_1_n_n none l r (constant (F := Ideal) S512x512 .f32 0x00000000#32) (ix2 n m)
      = ∑ k : Fin 512, l (ix2 n k) * r (ix2 k m) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 n m) ((ValueIdx.contrEquiv1 dot_S512x512_S512x512_S512x512_1_0_0_1_n_n 512 rfl rfl).symm k) = ix2 n k := funext fun a => Fin.ext (by
    match a with
    | ⟨0, _⟩ => exact lhs_gsq_0 _ _
    | ⟨1, _⟩ => exact (lhs_gsq_1 _ _).trans hk)
  have er : dot_S512x512_S512x512_S512x512_1_0_0_1_n_n.rhsIdx (ix2 n m) ((ValueIdx.contrEquiv1 dot_S512x512_S512x512_S512x512_1_0_0_1_n_n 512 rfl rfl).symm k) = ix2 k m := funext fun a => Fin.ext (by
    match a with
    | ⟨0, _⟩ => exact (rhs_gsq_0 _ _).trans hk
    | ⟨1, _⟩ => exact rhs_gsq_1 _ _)
  rw [el, er]

/-! ## The two sums of squares: along the rows, and down the columns -/

/-- A sum along the rows: entry `n` is the sum of row `n`. -/
theorem rowsum_apply (src : FVec Ideal S512x512 .f32) (h : S512x512.Reduces [1] S512) (hφ : FKind.Formats .f32)
    (hacc : (0x00000000#32 : BitVec 32) = 0x00000000#32) (n : Fin 512) :
    multiReduction (F := Ideal) .add [1] S512 src 0x00000000#32 h hφ hacc (ix1 n) = ∑ k : Fin 512, src (ix2 n k) := by
  refine (Ideal.multiReduction_add_single src 0x00000000#32 h hφ hacc (ix1 n)).trans ?_
  refine Finset.sum_congr rfl fun k _ => congrArg src ?_
  funext a; apply Fin.ext
  match a with
  | ⟨0, _⟩ => rfl
  | ⟨1, _⟩ => rfl

/-- A sum down the columns: entry `m` is the sum of column `m`. -/
theorem colsum_apply (src : FVec Ideal S512x512 .f32) (h : S512x512.Reduces [0] S512) (hφ : FKind.Formats .f32)
    (hacc : (0x00000000#32 : BitVec 32) = 0x00000000#32) (m : Fin 512) :
    multiReduction (F := Ideal) .add [0] S512 src 0x00000000#32 h hφ hacc (ix1 m) = ∑ k : Fin 512, src (ix2 k m) := by
  refine (Ideal.multiReduction_add_single src 0x00000000#32 h hφ hacc (ix1 m)).trans ?_
  refine Finset.sum_congr rfl fun k _ => congrArg src ?_
  funext a; apply Fin.ext
  match a with
  | ⟨0, _⟩ => rfl
  | ⟨1, _⟩ => rfl

/-! ## The body's arithmetic at an entry -/

/-- The Gram matrix of the slab's columns, as the body forms it: the slab transposed, times the slab. -/
def gramVec (x0 : Vec Ideal S1x1024x512 .f32) : FVec Ideal S512x512 .f32 :=
  matmul dot_S512x1024_S1024x512_S512x512_1_0_0_1_n_n none
    (transpose S512x1024 [1, 0] (truncf .bf16 (shapeCast S1024x512 x0 shapeCasts_S1x1024x512_S1024x512) bitsLt_bf16_f32) transposes_S1024x512_p1_0_S512x1024)
    (truncf .bf16 (shapeCast S1024x512 x0 shapeCasts_S1x1024x512_S1024x512) bitsLt_bf16_f32)
    (constant S512x512 .f32 0x00000000#32)

theorem gramVec_apply (x0 : Vec Ideal S1x1024x512 .f32) (n m : Fin 512) :
    gramVec x0 (ix2 n m) = ∑ c : Fin 1024, x0 (ix3 (0 : Fin 1) c n) * x0 (ix3 (0 : Fin 1) c m) := by
  unfold gramVec
  refine (gram_mm_apply _ _ n m).trans (Finset.sum_congr rfl fun c _ => ?_)
  refine congrArg₂ HMul.hMul ?_ ?_
  · exact (transpose_ix2_apply _ _ n c).trans (shapeCast_1ab_ab_apply x0 _ c n)
  · exact shapeCast_1ab_ab_apply x0 _ c m

theorem pay_apply (x0 : Vec Ideal S1x1024x512 .f32) (n m : Fin 512) :
    k0_pay1 (F := Ideal) x0 (ix3 (0 : Fin 1) n m)
      = Ideal.sqrt (max ((∑ k : Fin 512, gramVec x0 (ix2 n k) * gramVec x0 (ix2 n k)) + (∑ k : Fin 512, gramVec x0 (ix2 k m) * gramVec x0 (ix2 k m))
          - Cert.Spec.two * ∑ k : Fin 512, gramVec x0 (ix2 n k) * gramVec x0 (ix2 k m)) Cert.Spec.eps) := by
  unfold k0_pay1
  refine (shapeCast_ab_1ab_apply _ _ 0 n m).trans ?_
  refine congrArg Ideal.sqrt (congrArg₂ max (congrArg₂ HSub.hSub (congrArg₂ HAdd.hAdd ?_ ?_) (congrArg₂ HMul.hMul rfl ?_)) rfl)
  · refine (broadcastTo_a1_ab_apply _ _ n m).trans ((shapeCast_a_a1_apply _ _ n 0).trans ((rowsum_apply _ _ _ _ n).trans ?_))
    exact Finset.sum_congr rfl fun k _ => rfl
  · refine (broadcastTo_1b_ab_apply _ _ n m).trans ((shapeCast_a_1a_apply _ _ 0 m).trans ((colsum_apply _ _ _ _ m).trans ?_))
    exact Finset.sum_congr rfl fun k _ => rfl
  · exact (gsq_mm_apply _ _ n m).trans (Finset.sum_congr rfl fun k _ => rfl)

/-- With the slab read off batch `b` of the whole input, the body's entry `(n, m)` is the distance matrix's entry `(b, n, m)`:
    the slab's Gram matrix is batch `b`'s, and since that matrix is symmetric the column sums of squares are the row sums
    and rows against columns are rows against rows. -/
theorem point_eq (x0 : Vec Ideal S1x1024x512 .f32) (X : (⟨3, ![32, 1024, 512]⟩ : Shape).Idx → EReal) (b : Fin 32)
    (hx : ∀ (r : Fin 1024) (q : Fin 512), x0 (ix3 (0 : Fin 1) r q) = X (ix3 b r q)) (n m : Fin 512) :
    k0_pay1 (F := Ideal) x0 (ix3 (0 : Fin 1) n m) = Cert.Spec.dist X (ix3 b n m) := by
  have hg : ∀ p q : Fin 512, gramVec x0 (ix2 p q) = Cert.Spec.gram X b p q := fun p q => by
    rw [gramVec_apply]; unfold Cert.Spec.gram
    exact Finset.sum_congr rfl fun c _ => by rw [hx, hx]
  have h1 : (∑ k : Fin 512, gramVec x0 (ix2 n k) * gramVec x0 (ix2 n k)) = Cert.Spec.sq X b n := by
    unfold Cert.Spec.sq
    exact Finset.sum_congr rfl fun k _ => by rw [hg]
  have h2 : (∑ k : Fin 512, gramVec x0 (ix2 k m) * gramVec x0 (ix2 k m)) = Cert.Spec.sq X b m := by
    unfold Cert.Spec.sq
    exact Finset.sum_congr rfl fun k _ => by rw [hg, Cert.Spec.gram_symm]
  have h3 : (∑ k : Fin 512, gramVec x0 (ix2 n k) * gramVec x0 (ix2 k m)) = Cert.Spec.cross X b n m := by
    unfold Cert.Spec.cross
    exact Finset.sum_congr rfl fun k _ => by rw [hg, hg, Cert.Spec.gram_symm X b k m]
  rw [pay_apply, h1, h2, h3]
  rfl

/-! ## From the blocks to the array -/

theorem hz : (![0, 0, 0] : Fin 3 → Nat) = fun _ => 0 := funext fun a => by fin_cases a <;> rfl

/-- Both windows' blocks at point `t` are batch `t`: block index `(t, 0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

variable (V : (c : Dev nD) → (b : Ref sig .tc) → Buf (Elt Ideal) ((c : Thread nD τ).loc b))

/-- The input's block at point `t` is batch `t`'s slab of the input array. -/
theorem blk_apply (c : Dev nD) (t : Fin cfg0.N) (b : Fin 32) (hb : b.val = t.val) (r : Fin 1024) (q : Fin 512) :
    (Dist.blk (F := Ideal) V c 0 t : Vec Ideal S1x1024x512 .f32) (ix3 (0 : Fin 1) r q)
      = (V c main_arg2 : (⟨3, ![32, 1024, 512]⟩ : Shape).Idx → EReal) (ix3 b r q) := by
  obtain ⟨e0, e1, e2, -⟩ := idx_facts t
  unfold Dist.blk
  rw [View.read_apply]
  show V c main_arg2 _ = V c main_arg2 _
  congr 1
  funext a
  apply Fin.ext
  match a with
  | ⟨0, _⟩ => show win0_0.index t (0 : Fin 3) * 1 + 1 * 0 = b.val; rw [e0]; omega
  | ⟨1, _⟩ => show win0_0.index t (1 : Fin 3) * 1024 + 1 * r.val = r.val; rw [e1]; omega
  | ⟨2, _⟩ => show win0_0.index t (2 : Fin 3) * 512 + 1 * q.val = q.val; rw [e2]; omega

/-- What point `t` writes back is its block of the distance matrix of the whole input. -/
theorem flushed_eq (c : Dev nD) (t : Fin cfg0.N) :
    (Dist.dat (F := Ideal) V c).flushed 1 t = ((cfg0.win 1).blk t).view.read (Elt Ideal) (Cert.Spec.dist (V c main_arg2)) := by
  show (cfg0.win 1).cut (grid0.coords t) ((Dist.dat (F := Ideal) V c).after 1 t) = _
  rw [Dist.after_1]
  unfold Dist.dOut
  rw [View.canon_unit_zero hz]
  simp only [View.ld_unit_zero (S := S1x1024x512) hz]
  obtain ⟨-, -, -, e0, e1, e2⟩ := idx_facts t
  funext j
  have hj0 : (j 0).val < 1 := (j 0).isLt
  have hj1 : (j 1).val < 512 := (j 1).isLt
  have hj2 : (j 2).val < 512 := (j 2).isLt
  have ht : t.val < 32 := Nat.lt_of_lt_of_eq t.isLt N_0
  show k0_pay1 (F := Ideal) (Dist.blk V c 0 t) (win0_1.xinj (grid0.coords t) j) = Cert.Spec.dist (V c main_arg2) (((cfg0.win 1).blk t).view.emb j)
  have ej : win0_1.xinj (grid0.coords t) j = ix3 (0 : Fin 1) (⟨(j 1).val, hj1⟩ : Fin 512) (⟨(j 2).val, hj2⟩ : Fin 512) := funext fun a => Fin.ext (by
    match a with
    | ⟨0, _⟩ => show (j 0).val = 0; omega
    | ⟨1, _⟩ => rfl
    | ⟨2, _⟩ => rfl)
  have ei : ((cfg0.win 1).blk t).view.emb j = ix3 (⟨t.val, ht⟩ : Fin 32) (⟨(j 1).val, hj1⟩ : Fin 512) (⟨(j 2).val, hj2⟩ : Fin 512) := funext fun a => Fin.ext (by
    match a with
    | ⟨0, _⟩ => show win0_1.index t (0 : Fin 3) * 1 + 1 * (j 0).val = t.val; rw [e0]; omega
    | ⟨1, _⟩ => show win0_1.index t (1 : Fin 3) * 512 + 1 * (j 1).val = (j 1).val; rw [e1]; omega
    | ⟨2, _⟩ => show win0_1.index t (2 : Fin 3) * 512 + 1 * (j 2).val = (j 2).val; rw [e2]; omega)
  rw [ej, ei]
  exact point_eq (Dist.blk (F := Ideal) V c 0 t) (V c main_arg2) ⟨t.val, ht⟩ (fun r q => blk_apply V c t ⟨t.val, ht⟩ rfl r q) ⟨(j 1).val, hj1⟩ ⟨(j 2).val, hj2⟩

/-- An index of the output array is in point `t`'s block iff each coordinate is in the block's range on its axis. -/
theorem mem_blk (t : Fin cfg0.N) (i : S32x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v0).slice (win0_1.rect t)).set ↔ _
  rw [View.set_slice_whole, Rect.mem_set_unit]
  exact Iff.rfl

/-- Every index of the output array is in some point's block: batch `b` is covered by point `b`. -/
theorem cover (i : S32x512x512.Idx) : ∃ t : Fin cfg0.N, (cfg0.win 1).flush t = true ∧ i ∈ ((cfg0.win 1).blk t).view.set := by
  have h0 : (i 0).val < 32 := (i 0).isLt
  have h1 : (i 1).val < 512 := (i 1).isLt
  have h2 : (i 2).val < 512 := (i 2).isLt
  obtain ⟨t, ht⟩ : ∃ t : Fin cfg0.N, t.val = (i 0).val := ⟨⟨(i 0).val, Nat.lt_of_lt_of_eq h0 N_0.symm⟩, rfl⟩
  obtain ⟨-, -, -, e0, e1, e2⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; rw [e0]; omega
  | ⟨1, _⟩ => show win0_1.index t (1 : Fin 3) * 512 ≤ (i 1).val ∧ (i 1).val < win0_1.index t (1 : Fin 3) * 512 + 512; rw [e1]; omega
  | ⟨2, _⟩ => show win0_1.index t (2 : Fin 3) * 512 ≤ (i 2).val ∧ (i 2).val < win0_1.index t (2 : Fin 3) * 512 + 512; rw [e2]; omega

/-- The output array after the last grid point is the distance matrix of the input array as the region found it. -/
theorem arr_eq (c : Dev nD) :
    (Dist.dat (F := Ideal) V c).arrAt 1 cfg0.N = Cert.Spec.dist (V c main_arg2) :=
  (Dist.dat (F := Ideal) V c).arrAt_eq_of_cover 1 (Cert.Spec.dist (V c main_arg2)) (fun t _ => flushed_eq V c t) cover

end Cert.KernelIdeal.DistValue

end
-- ==== Proof.ProjValue.lean ====
/-
  The second pallas_call's output array after the run, at the ideal instance. The scratch after point `t` holds the partial
  products of column blocks 0 .. t summed, so after the last point the product over all 262144 columns (a sum over the columns
  regrouped as 32 blocks of 8192: addition of extended reals is commutative and associative); the last point adds the bias row,
  divides each row by the larger of its norm and `ε`, and its block — the whole output array — is the only one written back.
-/
import proofs.«163417_j67276367724779_1_alg».proof.Proof.ProjRegion
import proofs.«163417_j67276367724779_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The contraction axes of the kernel's matrix product, one at a time. -/
theorem lhs_mm_0 (i : S32x256.Idx) (q : dot_S32x8192_S8192x256_S32x256_1_0_0_1_n_n.contr.Idx) :
    (dot_S32x8192_S8192x256_S32x256_1_0_0_1_n_n.lhsIdx i q 0).val = (i 0).val := by
  unfold DotDims.lhsIdx
  rw [dif_neg (show ¬(0 : Fin S32x8192.rank) ∈ dot_S32x8192_S8192x256_S32x256_1_0_0_1_n_n.lhsBatch by decide), dif_pos (show (0 : Fin S32x8192.rank) ∈ dot_S32x8192_S8192x256_S32x256_1_0_0_1_n_n.lhsNonContracting by decide)]
  rfl
theorem lhs_mm_1 (i : S32x256.Idx) (q : dot_S32x8192_S8192x256_S32x256_1_0_0_1_n_n.contr.Idx) :
    (dot_S32x8192_S8192x256_S32x256_1_0_0_1_n_n.lhsIdx i q 1).val = (q ⟨0, by decide⟩).val :=
  dot_S32x8192_S8192x256_S32x256_1_0_0_1_n_n.lhsIdx_val_of_single rfl i q
theorem rhs_mm_0 (i : S32x256.Idx) (q : dot_S32x8192_S8192x256_S32x256_1_0_0_1_n_n.contr.Idx) :
    (dot_S32x8192_S8192x256_S32x256_1_0_0_1_n_n.rhsIdx i q 0).val = (q ⟨0, by decide⟩).val :=
  dot_S32x8192_S8192x256_S32x256_1_0_0_1_n_n.rhsIdx_val_of_single rfl i q
theorem rhs_mm_1 (i : S32x256.Idx) (q : dot_S32x8192_S8192x256_S32x256_1_0_0_1_n_n.contr.Idx) :
    (dot_S32x8192_S8192x256_S32x256_1_0_0_1_n_n.rhsIdx i q 1).val = (i 1).val := by
  unfold DotDims.rhsIdx
  rw [dif_neg (show ¬(1 : Fin S8192x256.rank) ∈ dot_S32x8192_S8192x256_S32x256_1_0_0_1_n_n.rhsBatch by decide), dif_pos (show (1 : Fin S8192x256.rank) ∈ dot_S32x8192_S8192x256_S32x256_1_0_0_1_n_n.rhsNonContracting by decide)]
  rfl

/-- One point's matrix product into the zeros, at an entry: the sum over the point's 8192 columns. -/
theorem mm_apply (xd : FVec Ideal S32x8192 .bf16) (xw : FVec Ideal S8192x256 .bf16) (r : Fin 32) (o : Fin 256) :
    matmul dot_S32x8192_S8192x256_S32x256_1_0_0_1_n_n none xd xw (constant (F := Ideal) S32x256 .f32 0x00000000#32) (ix2 r o)
      = ∑ kk : Fin 8192, xd (ix2 r kk) * xw (ix2 kk o) := by
  simp only [matmul]
  rw [Ideal.matmul_constant_zero_apply, ← Equiv.sum_comp (ValueIdx.contrEquiv1 dot_S32x8192_S8192x256_S32x256_1_0_0_1_n_n 8192 rfl rfl).symm]
  refine Finset.sum_congr rfl fun k _ => ?_
  have hk := ValueIdx.contrEquiv1_symm_val dot_S32x8192_S8192x256_S32x256_1_0_0_1_n_n 8192 rfl rfl k
  have el : dot_S32x8192_S8192x256_S32x256_1_0_0_1_n_n.lhsIdx (ix2 r o) ((ValueIdx.contrEquiv1 dot_S32x8192_S8192x256_S32x256_1_0_0_1_n_n 8192 rfl rfl).symm k) = ix2 r k := funext fun a => Fin.ext (by
    match a with
    | ⟨0, _⟩ => exact lhs_mm_0 _ _
    | ⟨1, _⟩ => exact (lhs_mm_1 _ _).trans hk)
  have er : dot_S32x8192_S8192x256_S32x256_1_0_0_1_n_n.rhsIdx (ix2 r o) ((ValueIdx.contrEquiv1 dot_S32x8192_S8192x256_S32x256_1_0_0_1_n_n 8192 rfl rfl).symm k) = ix2 k o := funext fun a => Fin.ext (by
    match a with
    | ⟨0, _⟩ => exact (rhs_mm_0 _ _).trans hk
    | ⟨1, _⟩ => exact rhs_mm_1 _ _)
  rw [el, er]

/-- The zeros the first point starts from. -/
theorem pay1_apply (r : Fin 32) (o : Fin 256) : (k1_pay1 (F := Ideal)) (ix2 r o) = 0 := by
  unfold k1_pay1
  rw [shapeCast_self]
  exact Ideal.ofBits_zero_f32

/-- One point's step at an entry: what the scratch held plus the point's partial product. -/
theorem pay2_apply (xw : Vec Ideal S8192x256 .f32) (xs : Vec Ideal S32x256 .f32) (xd : Vec Ideal S32x8192 .bf16) (r : Fin 32) (o : Fin 256) :
    k1_pay2 xw xs xd (ix2 r o) = xs (ix2 r o) + ∑ kk : Fin 8192, xd (ix2 r kk) * xw (ix2 kk o) := by
  unfold k1_pay2
  rw [shapeCast_self, shapeCast_self]
  refine (addf_apply _ _ _).trans ?_
  refine congrArg (xs (ix2 r o) + ·) ?_
  exact mm_apply xd (truncf .bf16 xw bitsLt_bf16_f32) r o

/-- The bias row spread over the 32 rows and added, at an entry. -/
theorem biased_apply (v16 : FVec Ideal S32x256 .f32) (v17 : FVec Ideal S1x256 .f32) (r : Fin 32) (o : Fin 256) :
    addf v16 (broadcastTo S32x256 v17 broadcasts_S1x256_S32x256) (ix2 r o) = v16 (ix2 r o) + v17 (ix2 (0 : Fin 1) o) := by
  refine (addf_apply _ _ _).trans ?_
  rw [broadcastTo_1b_ab_apply]

/-- The last point's result at an entry: the biased product over the larger of its row's norm and the clamp. -/
theorem pay3_apply (v16 : FVec Ideal S32x256 .f32) (v17 : FVec Ideal S1x256 .f32) (r : Fin 32) (o : Fin 256) :
    k1_pay3 (F := Ideal) v16 v17 (ix2 r o)
      = Ideal.div (v16 (ix2 r o) + v17 (ix2 (0 : Fin 1) o))
          (max (Ideal.sqrt (∑ o' : Fin 256, (v16 (ix2 r o') + v17 (ix2 (0 : Fin 1) o')) * (v16 (ix2 r o') + v17 (ix2 (0 : Fin 1) o'))))
            Cert.Spec.eps) := by
  unfold k1_pay3
  rw [shapeCast_self]
  refine (divf_apply _ _ _).trans ?_
  rw [biased_apply]
  refine congrArg (Ideal.div _) ?_
  refine (broadcastTo_apply _ broadcasts_S32x1_S32x256 (ix2 r o) (ix2 r (0 : Fin 1)) (fun a => ?_)).trans ?_
  · match a with
    | ⟨0, _⟩ => show r.val = if (32 : ℕ) = 1 then 0 else r.val; rw [if_neg (by decide)]
    | ⟨1, _⟩ => show (0 : ℕ) = if (1 : ℕ) = 1 then 0 else o.val; rw [if_pos rfl]
  refine (maximumf_apply _ _ _).trans ?_
  refine congrArg₂ max ?_ rfl
  show Ideal.sqrt (shapeCast S32x1 _ shapeCasts_S32_S32x1 (ix2 r (0 : Fin 1))) = _
  refine congrArg Ideal.sqrt ?_
  refine (shapeCast_apply _ shapeCasts_S32_S32x1 (ix2 r (0 : Fin 1)) (ix1 r) ?_).trans ?_
  · rw [Shape.rowMajor_val_one, Shape.rowMajor_val_two]; show r.val = r.val * 1 + 0; omega
  refine (Ideal.multiReduction_add_single _ 0x00000000#32 reduces_S32x256_S32 (.inl rfl) rfl (ix1 r)).trans ?_
  refine Finset.sum_congr rfl fun (k : Fin 256) _ => ?_
  have e : reduces_S32x256_S32.lift (ix1 r) k = ix2 r k :=
    funext fun a => by match a with | ⟨0, _⟩ => rfl | ⟨1, _⟩ => rfl
  rw [e]
  refine (mulf_apply _ _ _).trans ?_
  rw [biased_apply]

variable (V : (c : Dev nD) → (b : Ref sig .tc) → Buf (Elt Ideal) ((c : Thread nD τ).loc b))

/-- Where each window's block sits at point t: the distance block at column block t, the weight block at row block t,
    the bias row and the output at the origin. -/
theorem idx_facts : ∀ t : Fin cfg1.N,
    win1_0.index t (0 : Fin 2) = 0 ∧ win1_0.index t (1 : Fin 2) = t.val ∧ win1_1.index t (0 : Fin 2) = t.val ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0 :=
  (by decide +kernel : ∀ t : Fin grid1.N, _)

/-- The distance block's entry (r, kk) at point t is the array's entry (r, 8192 t + kk). -/
theorem blkD_apply (c : Dev nD) (t : Fin cfg1.N) (r : Fin 32) (kk : Fin 8192) (k : Fin 262144) (hk : k.val = 8192 * t.val + kk.val) :
    Proj.blk V c 0 t (ix2 r kk) = V c main_v1 (ix2 r k) := by
  unfold Proj.blk
  rw [View.read_apply]
  show V c main_v1 _ = V c main_v1 _
  refine congrArg (V c main_v1) (funext fun a => Fin.ext ?_)
  match a with
  | ⟨0, _⟩ => show win1_0.index t (0 : Fin 2) * 32 + 1 * r.val = r.val; rw [(idx_facts t).1]; omega
  | ⟨1, _⟩ => show win1_0.index t (1 : Fin 2) * 8192 + 1 * kk.val = k.val; rw [(idx_facts t).2.1, hk]; omega

/-- The weight block's entry (kk, o) at point t is the array's entry (8192 t + kk, o). -/
theorem blkW_apply (c : Dev nD) (t : Fin cfg1.N) (kk : Fin 8192) (o : Fin 256) (k : Fin 262144) (hk : k.val = 8192 * t.val + kk.val) :
    Proj.blk V c 1 t (ix2 kk o) = V c main_arg3 (ix2 k o) := by
  unfold Proj.blk
  rw [View.read_apply]
  show V c main_arg3 _ = V c main_arg3 _
  refine congrArg (V c main_arg3) (funext fun a => Fin.ext ?_)
  match a with
  | ⟨0, _⟩ => show win1_1.index t (0 : Fin 2) * 8192 + 1 * kk.val = k.val; rw [(idx_facts t).2.2.1, hk]; omega
  | ⟨1, _⟩ => show win1_1.index t (1 : Fin 2) * 256 + 1 * o.val = o.val; rw [(idx_facts t).2.2.2.1]; omega

/-- The bias window's block is the whole bias row at every point. -/
theorem blkB_apply (c : Dev nD) (t : Fin cfg1.N) (u : Fin 1) (o : Fin 256) :
    Proj.blk V c 2 t (ix2 u o) = V c main_v2 (ix2 u o) := by
  unfold Proj.blk
  rw [View.read_apply]
  show V c main_v2 _ = V c main_v2 _
  refine congrArg (V c main_v2) (funext fun a => Fin.ext ?_)
  match a with
  | ⟨0, _⟩ => show win1_2.index t (0 : Fin 2) * 1 + 1 * u.val = u.val; rw [(idx_facts t).2.2.2.2.1]; omega
  | ⟨1, _⟩ => show win1_2.index t (1 : Fin 2) * 256 + 1 * o.val = o.val; rw [(idx_facts t).2.2.2.2.2.1]; omega

/-- Point t's share of entry (r, o) of the product: the sum over the point's 8192 columns. -/
def part (D : (⟨2, ![32, 262144]⟩ : Shape).Idx → EReal) (W : (⟨2, ![262144, 256]⟩ : Shape).Idx → EReal)
    (r : Fin 32) (o : Fin 256) (t : Fin 32) : EReal :=
  ∑ kk : Fin 8192, D (ix2 r ⟨8192 * t.val + kk.val, by have := t.isLt; have := kk.isLt; omega⟩)
    * W (ix2 ⟨8192 * t.val + kk.val, by have := t.isLt; have := kk.isLt; omega⟩ o)

/-- The 32 shares together are the whole sum over the 262144 columns: the columns regrouped as 32 blocks of 8192. -/
theorem sum_part (D : (⟨2, ![32, 262144]⟩ : Shape).Idx → EReal) (W : (⟨2, ![262144, 256]⟩ : Shape).Idx → EReal)
    (r : Fin 32) (o : Fin 256) : ∑ t : Fin 32, part D W r o t = ∑ k : Fin 262144, D (ix2 r k) * W (ix2 k o) := by
  refine ((Equiv.sum_comp (finProdFinEquiv : Fin 32 × Fin 8192 ≃ Fin 262144) (fun k => D (ix2 r k) * W (ix2 k o))).symm.trans ?_).symm
  rw [Fintype.sum_prod_type]
  refine Finset.sum_congr rfl fun t _ => Finset.sum_congr rfl fun kk _ => ?_
  have e : (finProdFinEquiv : Fin 32 × Fin 8192 ≃ Fin 262144) (t, kk)
      = ⟨8192 * t.val + kk.val, by have := t.isLt; have := kk.isLt; omega⟩ :=
    Fin.ext (by show kk.val + 8192 * t.val = 8192 * t.val + kk.val; omega)
  rw [e]

/-- A point at or below a grid point is below 32. -/
theorem lt32 {n m : ℕ} (h : n < cfg1.N) (hm : m < n + 1) : m < 32 := by
  have hN : cfg1.N = 32 := Gen.N_1
  omega

/-- One point's step over the window blocks, at an entry: what the scratch held plus the point's share. -/
theorem step_apply (c : Dev nD) (t : Fin cfg1.N) (xs : Vec Ideal S32x256 .f32) (r : Fin 32) (o : Fin 256) :
    k1_pay2 (Proj.blk V c 1 t) xs (Proj.blk V c 0 t) (ix2 r o)
      = xs (ix2 r o) + part (V c main_v1) (V c main_arg3) r o ⟨t.val, lt32 t.isLt (Nat.lt_succ_self _)⟩ := by
  refine (pay2_apply (Proj.blk V c 1 t) xs (Proj.blk V c 0 t) r o).trans ?_
  refine congrArg (xs (ix2 r o) + ·) (Finset.sum_congr rfl fun kk _ => ?_)
  rw [blkD_apply V c t r kk ⟨8192 * t.val + kk.val, by have := lt32 t.isLt (Nat.lt_succ_self _); have := kk.isLt; omega⟩ rfl,
    blkW_apply V c t kk o ⟨8192 * t.val + kk.val, by have := lt32 t.isLt (Nat.lt_succ_self _); have := kk.isLt; omega⟩ rfl]

/-- The scratch after point n, at an entry: the shares of points 0 .. n summed. -/
theorem acc_closed (c : Dev nD) (r : Fin 32) (o : Fin 256) : ∀ (n : ℕ) (h : n < cfg1.N),
    Proj.acc V c n h (ix2 r o) = ∑ t : Fin (n + 1), part (V c main_v1) (V c main_arg3) r o ⟨t.val, lt32 h t.isLt⟩
  | 0, h => by
    show k1_pay2 (Proj.blk V c 1 ⟨0, h⟩) (k1_pay1 (F := Ideal)) (Proj.blk V c 0 ⟨0, h⟩) (ix2 r o) = _
    rw [step_apply V c ⟨0, h⟩ (k1_pay1 (F := Ideal)) r o, pay1_apply, zero_add, Fin.sum_univ_one]
    rfl
  | n + 1, h => by
    show k1_pay2 (Proj.blk V c 1 ⟨n + 1, h⟩) (Proj.acc V c n (Nat.lt_of_succ_lt h)) (Proj.blk V c 0 ⟨n + 1, h⟩) (ix2 r o) = _
    rw [step_apply V c ⟨n + 1, h⟩ (Proj.acc V c n (Nat.lt_of_succ_lt h)) r o, acc_closed c r o n (Nat.lt_of_succ_lt h)]
    exact (Fin.sum_univ_castSucc (fun t : Fin (n + 1 + 1) => part (V c main_v1) (V c main_arg3) r o ⟨t.val, lt32 h t.isLt⟩)).symm

/-- The last point's result over any scratch that holds the whole product and any bias block that is the bias row: the
    specification's quotient. -/
theorem proj_of (D : (⟨2, ![32, 262144]⟩ : Shape).Idx → EReal) (W : (⟨2, ![262144, 256]⟩ : Shape).Idx → EReal)
    (β : (⟨2, ![1, 256]⟩ : Shape).Idx → EReal) (v16 : FVec Ideal S32x256 .f32) (v17 : FVec Ideal S1x256 .f32) (r : Fin 32)
    (h16 : ∀ o : Fin 256, v16 (ix2 r o) = ∑ k : Fin 262144, D (ix2 r k) * W (ix2 k o))
    (h17 : ∀ o : Fin 256, v17 (ix2 (0 : Fin 1) o) = β (ix2 (0 : Fin 1) o)) (o : Fin 256) :
    k1_pay3 (F := Ideal) v16 v17 (ix2 r o) = Cert.Spec.proj D W β (ix2 r o) := by
  rw [pay3_apply]
  simp only [h16, h17]
  rfl

/-- What the last point stores is the specification's projection of the arrays the region found. -/
theorem out_eq (c : Dev nD) (t : Fin cfg1.N) (ht : t.val = 31) :
    Proj.outAt V c t = Cert.Spec.proj (V c main_v1) (V c main_arg3) (V c main_v2) := by
  obtain ⟨n, hn⟩ := t
  obtain rfl : n = 31 := ht
  funext j
  obtain ⟨r, o, rfl⟩ : ∃ (r : Fin 32) (o : Fin 256), j = ix2 r o := ⟨j 0, j 1, eq_ix2 j⟩
  exact proj_of (V c main_v1) (V c main_arg3) (V c main_v2) (Proj.acc V c 31 hn) (Proj.blk V c 2 ⟨31, hn⟩) r
    (fun o' => (acc_closed V c r o' 31 hn).trans (sum_part (V c main_v1) (V c main_arg3) r o'))
    (fun o' => blkB_apply V c ⟨31, hn⟩ 0 o') o

/-- The one write-back, at the last point, writes the projection: the output window's block at the origin is the whole array. -/
theorem flushed_eq (c : Dev nD) (t : Fin cfg1.N) (hf : (cfg1.win 3).flush t = true) :
    (Proj.dat (F := Ideal) V c).flushed 3 t
      = ((cfg1.win 3).blk t).view.read (Elt Ideal) (Cert.Spec.proj (V c main_v1) (V c main_arg3) (V c main_v2)) := by
  have hN : cfg1.N = 32 := Gen.N_1
  have h31 : t.val = 31 := by have := (Gen.flush1_3 t).mp hf; have := t.isLt; omega
  show (cfg1.win 3).cut (grid1.coords t) ((Proj.dat (F := Ideal) V c).after 3 t) = _
  rw [Proj.after_3, out_eq V c t h31]
  have hz' : (fun a => win1_3.index t a * main_v3.ty.shape.size a) = fun _ => 0 := funext fun a => by
    match a with
    | ⟨0, _⟩ => show win1_3.index t (0 : Fin 2) * 32 = 0; rw [(idx_facts t).2.2.2.2.2.2.1]
    | ⟨1, _⟩ => show win1_3.index t (1 : Fin 2) * 256 = 0; rw [(idx_facts t).2.2.2.2.2.2.2]
  exact (Memref.read_access_unit_zero (Elt Ideal) main_v3 hz' (fun a => by rw [congrFun hz' a]; simp)
    (Cert.Spec.proj (V c main_v1) (V c main_arg3) (V c main_v2))).symm

/-- The last point, 31, is a point of the grid. -/
theorem lastLt : 31 < cfg1.N := lt_of_lt_of_eq (by decide : 31 < 32) Gen.N_1.symm

/-- The last point's block covers every index of the output array. -/
theorem cover (i : S32x256.Idx) : ∃ t : Fin cfg1.N, (cfg1.win 3).flush t = true ∧ i ∈ ((cfg1.win 3).blk t).view.set := by
  have h0 : (i 0 : ℕ) < 32 := (i 0).isLt
  have h1 : (i 1 : ℕ) < 256 := (i 1).isLt
  refine ⟨⟨31, lastLt⟩, (Gen.flush1_3 ⟨31, lastLt⟩).mpr rfl, ?_⟩
  show i ∈ ((View.whole main_v3).slice (win1_3.rect ⟨31, lastLt⟩)).set
  rw [View.set_slice_whole, Rect.mem_set_unit]
  intro a
  match a with
  | ⟨0, _⟩ =>
    show win1_3.index ⟨31, lastLt⟩ (0 : Fin 2) * 32 ≤ (i 0 : ℕ) ∧ (i 0 : ℕ) < win1_3.index ⟨31, lastLt⟩ (0 : Fin 2) * 32 + 32
    rw [(idx_facts ⟨31, lastLt⟩).2.2.2.2.2.2.1]; omega
  | ⟨1, _⟩ =>
    show win1_3.index ⟨31, lastLt⟩ (1 : Fin 2) * 256 ≤ (i 1 : ℕ) ∧ (i 1 : ℕ) < win1_3.index ⟨31, lastLt⟩ (1 : Fin 2) * 256 + 256
    rw [(idx_facts ⟨31, lastLt⟩).2.2.2.2.2.2.2]; omega

/-- The output array after the last grid point is the normalized biased projection of the flattened distance matrix, the
    weights and the bias row as the region found them. -/
theorem arr_eq (c : Dev nD) :
    (Proj.dat (F := Ideal) V c).arrAt 3 cfg1.N = Cert.Spec.proj (V c main_v1) (V c main_arg3) (V c main_v2) :=
  (Proj.dat (F := Ideal) V c).arrAt_eq_of_cover 3 (Cert.Spec.proj (V c main_v1) (V c main_arg3) (V c main_v2))
    (flushed_eq V c) cover

end Cert.KernelIdeal.ProjValue

end
-- ==== Proof.Result.lean ====
/-
  The idealized program's result, assembled. The second pallas_call is entered with: the flattened buffer at the reshape of what
  the first pallas_call left — the distance matrix of the input argument, read row-major: entry [r, 512 n + m] is entry [r, n, m]
  —, the weights argument untouched, and the bias argument reshaped to a row. So the result array, the normalized biased
  projection of those three, is the specification of the three arguments.
-/
import proofs.«163417_j67276367724779_1_alg».proof.Proof.TwoRegions
import proofs.«163417_j67276367724779_1_alg».proof.Proof.DistValue
import proofs.«163417_j67276367724779_1_alg».proof.Proof.ProjValue
import proofs.«163417_j67276367724779_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- A (32 x 512 x 512) array reshaped to (32 x 262144) reads entry [r, q] at [r, q / 512, q % 512]. -/
theorem flat_eq (d : S32x512x512.Idx → EReal) :
    shapeCast S32x262144 d shapeCasts_S32x512x512_S32x262144 = Cert.Spec.flat d := by
  funext j
  refine shapeCast_apply d _ j _ ?_
  rw [Shape.rowMajor_val_three, Shape.rowMajor_val_two]
  show ((j 0).val * 512 + (j 1).val / 512) * 512 + (j 1).val % 512 = (j 0).val * 262144 + (j 1).val
  omega

/-- A vector of 256 reshaped to a (1 x 256) row reads entry [0, o] at [o]. -/
theorem row_eq (v : S256.Idx → EReal) : shapeCast S1x256 v shapeCasts_S256_S1x256 = Cert.Spec.row v := by
  funext j
  refine shapeCast_apply v _ j _ ?_
  rw [Shape.rowMajor_val_one, Shape.rowMajor_val_two]
  show (j 1).val = (j 0).val * 256 + (j 1).val
  have h0 : (j 0).val = 0 := by have := idx2_lt0 j; omega
  omega

/-- The first pallas_call leaves the distance matrix of the input argument. -/
theorem V1_v0 (c : Dev nD) : Run.V1 m ρ c main_v0 = Cert.Spec.dist (m ((c : Thread nD τ).loc main_arg2)) :=
  (Run.hF0 m ρ c 1).symm.trans (DistValue.arr_eq (Run.V0 m ρ) c)

/-- The second pallas_call finds the flattened buffer at the reshape of that, -/
theorem V2_v1 (c : Dev nD) : (Run.V2 m ρ c main_v1 : S32x262144.Idx → EReal)
    = shapeCast S32x262144 (Run.V1 m ρ c main_v0) shapeCasts_S32x512x512_S32x262144 := by
  show StableHlo.after hostOps1 (Run.W1 m ρ c) (Proc.devRef .tc main_v1) = _
  after_results
  rfl

/-- the bias row at the reshape of the bias argument, -/
theorem V2_v2 (c : Dev nD) : (Run.V2 m ρ c main_v2 : S1x256.Idx → EReal)
    = shapeCast S1x256 (m ((c : Thread nD τ).loc main_arg4)) shapeCasts_S256_S1x256 := by
  show StableHlo.after hostOps1 (Run.W1 m ρ c) (Proc.devRef .tc main_v2) = _
  after_results
  have e : Run.W1 m ρ c (Proc.devRef .tc main_arg4) = m ((c : Thread nD τ).loc main_arg4) :=
    (Run.W1_of_ne m ρ c main_arg4 (by decide)).trans rfl
  rw [e]
  rfl

/-- and the weights argument untouched. -/
theorem V2_arg3 (c : Dev nD) : Run.V2 m ρ c main_arg3 = m ((c : Thread nD τ).loc main_arg3) :=
  (Run.W2_of_not_written m ρ c main_arg3 (by decide) (by decide)).trans ((Run.W1_of_ne m ρ c main_arg3 (by decide)).trans rfl)

/-- THE RESULT: what the second pipeline's last write-back leaves is the specification of the three live arguments. -/
theorem result_eq (c : Dev nD) :
    (Proj.dat (F := Ideal) (Run.V2 m ρ) c).arrAt 3 cfg1.N
      = Cert.Spec.out (m ((c : Thread nD τ).loc main_arg2)) (m ((c : Thread nD τ).loc main_arg3)) (m ((c : Thread nD τ).loc main_arg4)) := by
  rw [ProjValue.arr_eq]
  unfold Cert.Spec.out
  have e1 : (Run.V2 m ρ c main_v1 : S32x262144.Idx → EReal) = Cert.Spec.flat (Cert.Spec.dist (m ((c : Thread nD τ).loc main_arg2))) := by
    rw [V2_v1, V1_v0, flat_eq]
  have e2 : (Run.V2 m ρ c main_v2 : S1x256.Idx → EReal) = Cert.Spec.row (m ((c : Thread nD τ).loc main_arg4)) := by
    rw [V2_v2, row_eq]
  rw [e1, e2, V2_arg3]

end Cert.KernelIdeal.Result

end
-- ==== Proof.RefValue.lean ====
/-
  The reference's result, read one operation at a time at an index, is the specification: its transposed batched product is the
  Gram matrix, its row sums of squares and batched product of the Gram matrix with itself are `sq` and `cross`, the clamp and
  square root give `dist`, the reshape flattens it, and the product with the weights, the bias, the row norms, the clamp and the
  quotient are `proj`.
-/
import proofs.«163417_j67276367724779_1_alg».proof.Proof.Gen.ReferenceIdeal.Read
import proofs.«163417_j67276367724779_1_alg».proof.Proof.Spec

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The batched product of the transposed slab with itself is the Gram matrix of the slab's columns. -/
theorem gram_eq (x2 : (⟨S32x1024x512, .f32⟩ : BufTy).Contents (Elt Ideal)) (b : Fin 32) (n m : Fin 512) :
    val_main_v1 (F := Ideal) x2 (ix3 b n m) = Cert.Spec.gram x2 b n m := by
  rw [val_main_v1_apply]
  unfold Cert.Spec.gram
  refine Finset.sum_congr rfl fun c _ => ?_
  rw [val_main_v0_apply, val_main_v0_apply]
  have el : idx_main_v0 (lidx_main_v1 (ix3 b n m) c) = ix3 b c n :=
    funext fun a => Fin.ext (by match a with | ⟨0, _⟩ => rfl | ⟨1, _⟩ => rfl | ⟨2, _⟩ => rfl)
  have er : idx_main_v0 (ridx_main_v1 (ix3 b n m) c) = ix3 b c m :=
    funext fun a => Fin.ext (by match a with | ⟨0, _⟩ => rfl | ⟨1, _⟩ => rfl | ⟨2, _⟩ => rfl)
  rw [el, er]

/-- A row of the squared Gram matrix summed is that row's sum of squares. -/
theorem sq_eq (x2 : (⟨S32x1024x512, .f32⟩ : BufTy).Contents (Elt Ideal)) (b : Fin 32) (n : Fin 512) :
    val_main_v3 (F := Ideal) x2 (ix2 b n) = Cert.Spec.sq x2 b n := by
  rw [val_main_v3_apply, val_main_cst_apply, Ideal.ofBits_def, Ideal.ofBits_zero_f32, zero_add]
  unfold Cert.Spec.sq
  refine Finset.sum_congr rfl fun k _ => ?_
  have e : idx_main_v3 (ix2 b n) k = ix3 b n k :=
    funext fun a => Fin.ext (by match a with | ⟨0, _⟩ => rfl | ⟨1, _⟩ => rfl | ⟨2, _⟩ => rfl)
  rw [val_main_v2_apply, Ideal.mulf_def, e, gram_eq]

/-- The Gram matrix contracted with itself along its columns is the rows' inner product. -/
theorem cross_eq (x2 : (⟨S32x1024x512, .f32⟩ : BufTy).Contents (Elt Ideal)) (b : Fin 32) (n m : Fin 512) :
    val_main_v4 (F := Ideal) x2 (ix3 b n m) = Cert.Spec.cross x2 b n m := by
  rw [val_main_v4_apply]
  unfold Cert.Spec.cross
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er, gram_eq, gram_eq]

/-- The broadcasts, the sum, twice the product, the difference, the clamp and the square root give the distance matrix. -/
theorem dist_eq (x2 : (⟨S32x1024x512, .f32⟩ : BufTy).Contents (Elt Ideal)) :
    val_main_v15 (F := Ideal) x2 = Cert.Spec.dist x2 := by
  funext i
  obtain ⟨b, n, m, rfl⟩ : ∃ (b : Fin 32) (n m : Fin 512), i = ix3 b n m := ⟨i 0, i 1, i 2, eq_ix3 i⟩
  rw [val_main_v15_apply, val_main_v14_apply, val_main_v12_apply, val_main_v9_apply, val_main_v7_apply, val_main_v5_apply,
    val_main_v8_apply, val_main_v6_apply, val_main_v11_apply, val_main_v10_apply, val_main_cst_0_apply, val_main_v13_apply,
    val_main_cst_1_apply]
  have e5 : idx_main_v5 (idx_main_v7 (ix3 b n m)) = ix2 b n :=
    funext fun a => Fin.ext (by match a with | ⟨0, _⟩ => rfl | ⟨1, _⟩ => rfl)
  have e6 : idx_main_v6 (idx_main_v8 (ix3 b n m)) = ix2 b m :=
    funext fun a => Fin.ext (by match a with | ⟨0, _⟩ => rfl | ⟨1, _⟩ => rfl)
  rw [e5, e6, sq_eq, sq_eq, cross_eq]
  simp only [Ideal.hostUnary_sqrt_def, Ideal.maximumf_def, Ideal.subf_def, Ideal.addf_def, Ideal.mulf_def, Ideal.ofBits_def]
  rfl

/-- The reshape reads entry [r, k] of the flattened matrix at [r, k / 512, k % 512]. -/
theorem flat_eq (x2 : (⟨S32x1024x512, .f32⟩ : BufTy).Contents (Elt Ideal)) :
    val_main_v16 (F := Ideal) x2 = Cert.Spec.flat (Cert.Spec.dist x2) := by
  funext i
  obtain ⟨r, k, rfl⟩ : ∃ (r : Fin 32) (k : Fin 262144), i = ix2 r k := ⟨i 0, i 1, eq_ix2 i⟩
  rw [val_main_v16_apply, dist_eq]
  unfold Cert.Spec.flat
  refine congrArg (Cert.Spec.dist x2) (funext fun a => Fin.ext ?_)
  have hk : k.val < 262144 := k.isLt
  match a with
  | ⟨0, _⟩ => show (r.val * 262144 + k.val) / 262144 = r.val; omega
  | ⟨1, _⟩ => show (r.val * 262144 + k.val) / 512 % 512 = k.val / 512; omega
  | ⟨2, _⟩ => show (r.val * 262144 + k.val) % 512 = k.val % 512; omega

/-- The bias vector broadcast to one row. -/
theorem row_eq (x4 : (⟨S256, .f32⟩ : BufTy).Contents (Elt Ideal)) :
    val_main_v18 (F := Ideal) x4 = Cert.Spec.row x4 := by
  funext i
  rw [val_main_v18_apply]
  unfold Cert.Spec.row
  exact congrArg x4 (funext fun a => Fin.ext (by match a with | ⟨0, _⟩ => rfl))

/-- The product with the weights plus the broadcast bias. -/
theorem lin_eq (x2 : (⟨S32x1024x512, .f32⟩ : BufTy).Contents (Elt Ideal)) (x3 : (⟨S262144x256, .f32⟩ : BufTy).Contents (Elt Ideal))
    (x4 : (⟨S256, .f32⟩ : BufTy).Contents (Elt Ideal)) (r : Fin 32) (o : Fin 256) :
    val_main_v20 (F := Ideal) x2 x3 x4 (ix2 r o)
      = Cert.Spec.lin (Cert.Spec.flat (Cert.Spec.dist x2)) x3 (Cert.Spec.row x4) r o := by
  rw [val_main_v20_apply, val_main_v17_apply, val_main_v19_apply, Ideal.addf_def, flat_eq, row_eq]
  unfold Cert.Spec.lin
  have e19 : idx_main_v19 (ix2 r o) = ix2 0 o :=
    funext fun a => Fin.ext (by match a with | ⟨0, _⟩ => rfl | ⟨1, _⟩ => rfl)
  rw [e19]
  refine congrArg (fun s : EReal => s + Cert.Spec.row x4 (ix2 0 o)) ?_
  refine Finset.sum_congr rfl fun k _ => ?_
  have el : lidx_main_v17 (ix2 r o) k = ix2 r k :=
    funext fun a => Fin.ext (by match a with | ⟨0, _⟩ => rfl | ⟨1, _⟩ => rfl)
  have er : ridx_main_v17 (ix2 r o) k = ix2 k o :=
    funext fun a => Fin.ext (by match a with | ⟨0, _⟩ => rfl | ⟨1, _⟩ => rfl)
  rw [el, er]

/-- The sum over a row of the squares of the linear map: the square of that row's Euclidean norm. -/
theorem normsq_eq (x2 : (⟨S32x1024x512, .f32⟩ : BufTy).Contents (Elt Ideal)) (x3 : (⟨S262144x256, .f32⟩ : BufTy).Contents (Elt Ideal))
    (x4 : (⟨S256, .f32⟩ : BufTy).Contents (Elt Ideal)) (r : Fin 32) :
    val_main_call0_v1 (F := Ideal) x2 x3 x4 (ix1 r)
      = ∑ o : Fin 256, Cert.Spec.lin (Cert.Spec.flat (Cert.Spec.dist x2)) x3 (Cert.Spec.row x4) r o
          * Cert.Spec.lin (Cert.Spec.flat (Cert.Spec.dist x2)) x3 (Cert.Spec.row x4) r o := by
  rw [val_main_call0_v1_apply, val_main_call0_cst_apply, Ideal.ofBits_def, Ideal.ofBits_zero_f32, zero_add]
  refine Finset.sum_congr rfl fun k _ => ?_
  have e : idx_main_call0_v1 (ix1 r) k = ix2 r k :=
    funext fun a => Fin.ext (by match a with | ⟨0, _⟩ => rfl | ⟨1, _⟩ => rfl)
  rw [val_main_call0_v0_apply, Ideal.mulf_def, e, lin_eq]

/-- The specification's quotient read at explicit coordinates. -/
theorem proj_apply (D : (⟨2, ![32, 262144]⟩ : Shape).Idx → EReal) (W : (⟨2, ![262144, 256]⟩ : Shape).Idx → EReal)
    (β : (⟨2, ![1, 256]⟩ : Shape).Idx → EReal) (r : Fin 32) (o : Fin 256) :
    Cert.Spec.proj D W β (ix2 r o)
      = Ideal.div (Cert.Spec.lin D W β r o)
          (max (Ideal.sqrt (∑ o' : Fin 256, Cert.Spec.lin D W β r o' * Cert.Spec.lin D W β r o')) Cert.Spec.eps) := rfl

/-- The reference's result term at the ideal instance is the specification of its three live arguments. -/
theorem result_eq (x2 : (⟨S32x1024x512, .f32⟩ : BufTy).Contents (Elt Ideal)) (x3 : (⟨S262144x256, .f32⟩ : BufTy).Contents (Elt Ideal))
    (x4 : (⟨S256, .f32⟩ : BufTy).Contents (Elt Ideal)) :
    val_main_v25 (F := Ideal) x2 x3 x4 = Cert.Spec.out x2 x3 x4 := by
  funext i
  obtain ⟨r, o, rfl⟩ : ∃ (r : Fin 32) (o : Fin 256), i = ix2 r o := ⟨i 0, i 1, eq_ix2 i⟩
  rw [val_main_v25_apply, val_main_v24_apply, val_main_v23_apply, val_main_v21_apply, val_main_call0_v2_apply,
    val_main_v22_apply, val_main_cst_2_apply, lin_eq]
  have e : idx_main_call0_v2 (idx_main_v24 (ix2 r o)) = ix1 r :=
    funext fun a => Fin.ext (by match a with | ⟨0, _⟩ => rfl)
  rw [e, normsq_eq, Ideal.hostDivf_def, Ideal.maximumf_def, Ideal.hostUnary_sqrt_def, Ideal.ofBits_def]
  unfold Cert.Spec.out
  rw [proj_apply]

end Cert.ReferenceIdeal.RefValue

end
-- ==== Proof.lean ====
/-
  The certificate: a two-kernel Pallas program — pairwise distances between the rows of each batch's Gram matrix, flattened, then
  projected by a weight matrix, biased and normalized row by row — computes, over the extended reals, what its jnp reference does.

  Both programs compute one function of the input x (32 x 1024 x 512), the weights W (262144 x 256) and the bias (256); the two
  unused arguments play no part. Per batch: S = xᵀx (512 x 512, symmetric because multiplication commutes); the kernel squares S as
  rows against columns and sums S∘S along rows and along columns, the reference contracts rows against rows and reuses one row sum:
  equal by S's symmetry. d = √(max(sq_n + sq_m − 2 (S·S)_{nm}, ε)) with the same literal ε on both sides. The kernel then flattens d
  and multiplies by W in 32 column blocks of 8192, accumulating in a scratch buffer across the grid; the reference multiplies once: the
  same sum, regrouped. Both add the bias and divide each row by max(‖row‖, ε). A change of float format (the kernel's bf16 casts) is
  the identity at this instance. No finiteness is used: the precondition is never opened.

  The frames: each kernel's body is run once symbolically per control case (the second kernel has three: first point, middle,
  last), the second kernel's scratch is carried between grid points by the pipeline's invariant, and @main — region, two host
  reshapes, region — is the launch over those; the same text serves the word-level program and its idealization. The reference is
  host operations only: its frame is its run.
-/
import proofs.«163417_j67276367724779_1_alg».proof.Defs
import proofs.«163417_j67276367724779_1_alg».proof.Proof.Gen.Kernel
import proofs.«163417_j67276367724779_1_alg».proof.Proof.Gen.KernelIdeal
import proofs.«163417_j67276367724779_1_alg».proof.Proof.Gen.ReferenceIdeal
import proofs.«163417_j67276367724779_1_alg».proof.Proof.Gen.Pre_finite_inputs
import proofs.«163417_j67276367724779_1_alg».proof.Proof.Gen.ReferenceIdeal.Run
import proofs.«163417_j67276367724779_1_alg».proof.Proof.Gen.ReferenceIdeal.Read
import proofs.«163417_j67276367724779_1_alg».proof.Proof.KernelTwoRegions
import proofs.«163417_j67276367724779_1_alg».proof.Proof.TwoRegions
import proofs.«163417_j67276367724779_1_alg».proof.Proof.Result
import proofs.«163417_j67276367724779_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- The reference is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification of the three live arguments in their
    result buffers: the kernel's by its run and the two regions' values, the reference's by its run read at an index. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
